-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x64 : Shape := ⟨2, ![20000, 64]⟩
abbrev S640000x64 : Shape := ⟨2, ![640000, 64]⟩
abbrev S16x64 : Shape := ⟨2, ![16, 64]⟩
abbrev S20000 : Shape := ⟨1, ![20000]⟩
abbrev S640000 : Shape := ⟨1, ![640000]⟩
abbrev S2x640000 : Shape := ⟨2, ![2, 640000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S20000x64 : S_.BroadcastsInDim S20000x64 (![] : Fin 0 → Fin S20000x64.rank)
  reducesTo_S20000x64_S_d0_1 : S20000x64.ReducesTo [0, 1] S_
  h_S_ : 0 < S_.numel
  bcast_S_S640000x64 : S_.BroadcastsInDim S640000x64 (![] : Fin 0 → Fin S640000x64.rank)
  reducesTo_S640000x64_S_d0_1 : S640000x64.ReducesTo [0, 1] S_
  bcast_S_S16x64 : S_.BroadcastsInDim S16x64 (![] : Fin 0 → Fin S16x64.rank)
  reducesTo_S16x64_S_d0_1 : S16x64.ReducesTo [0, 1] S_
  bcast_S_S20000 : S_.BroadcastsInDim S20000 (![] : Fin 0 → Fin S20000.rank)
  reducesTo_S20000_S_d0 : S20000.ReducesTo [0] S_
  bcast_S_S640000 : S_.BroadcastsInDim S640000 (![] : Fin 0 → Fin S640000.rank)
  reducesTo_S640000_S_d0 : S640000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x640000 : S_.BroadcastsInDim S2x640000 (![] : Fin 0 → Fin S2x640000.rank)
  reducesTo_S2x640000_S_d0_1 : S2x640000.ReducesTo [0, 1] S_

variable [Facts]

def fn_part3 {F : FTy → Type} [FloatOps F] (main_arg6 : IVec S640000 32) (main_v50 : IVec S_ 1) : IVec S_ 1 :=
  let main_c_19 : IVec S_ 32 := constantI S_ 32 0#32
  let main_v51 : IVec S640000 32 := broadcastInDim S640000 ![] bcast_S_S640000 main_c_19
  let main_v52 : IVec S640000 1 := cmpi .sge main_arg6 main_v51
  let main_c_20 : IVec S_ 32 := constantI S_ 32 16#32
  let main_v53 : IVec S640000 32 := broadcastInDim S640000 ![] bcast_S_S640000 main_c_20
  let main_v54 : IVec S640000 1 := cmpi .slt main_arg6 main_v53
  let main_v55 : IVec S640000 1 := andi main_v52 main_v54
  let main_c_21 : IVec S_ 1 := constantI S_ 1 1#1
  let main_v56 : IVec S_ 1 := (fun x v => Host.reduce IntOp.andi x v reducesTo_S640000_S_d0 h_S_) main_v55 main_c_21
  let main_v57 : IVec S_ 1 := andi main_v50 main_v56
  main_v57

def fn_part2 {F : FTy → Type} [FloatOps F] (main_arg5 : IVec S2x640000 32) (main_arg6 : IVec S640000 32) (main_arg9 : FVec F S128x64 .f32) (main_arg10 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_c_16 : IVec S_ 32 := constantI S_ 32 0#32
  let main_v44 : IVec S2x640000 32 := broadcastInDim S2x640000 ![] bcast_S_S2x640000 main_c_16
  let main_v45 : IVec S2x640000 1 := cmpi .sge main_arg5 main_v44
  let main_c_17 : IVec S_ 32 := constantI S_ 32 20000#32
  let main_v46 : IVec S2x640000 32 := broadcastInDim S2x640000 ![] bcast_S_S2x640000 main_c_17
  let main_v47 : IVec S2x640000 1 := cmpi .slt main_arg5 main_v46
  let main_v48 : IVec S2x640000 1 := andi main_v45 main_v47
  let main_c_18 : IVec S_ 1 := constantI S_ 1 1#1
  let main_v49 : IVec S_ 1 := (fun x v => Host.reduce IntOp.andi x v reducesTo_S2x640000_S_d0_1 h_S_) main_v48 main_c_18
  let main_v50 : IVec S_ 1 := andi main_v43 main_v49
  fn_part3 (F := F) main_arg6 main_v50

def fn_part1 {F : FTy → Type} [FloatOps F] (main_arg4 : FVec F S640000 .f32) (main_arg5 : IVec S2x640000 32) (main_arg6 : IVec S640000 32) (main_arg7 : FVec F S256x128 .f32) (main_arg8 : FVec F S128 .f32) (main_arg9 : FVec F S128x64 .f32) (main_arg10 : FVec F S64 .f32) (main_v13 : IVec S_ 1) (main_v16 : IVec S20000 1) : IVec S_ 1 :=
  let main_c_5 : IVec S_ 1 := constantI S_ 1 1#1
  let main_v17 : IVec S_ 1 := (fun x v => Host.reduce IntOp.andi x v reducesTo_S20000_S_d0 h_S_) main_v16 main_c_5
  let main_v18 : IVec S_ 1 := andi main_v13 main_v17
  let main_v19 : FVec F S640000 .f32 := Host.absf main_arg4
  let main_cst_6 : FVec F S_ .f32 := constant S_ .f32 0x7F800000#32
  let main_v20 : FVec F S640000 .f32 := broadcastInDim S640000 ![] bcast_S_S640000 main_cst_6
  let main_v21 : IVec S640000 1 := cmpf .olt main_v19 main_v20
  let main_c_7 : IVec S_ 1 := constantI S_ 1 1#1
  let main_v22 : IVec S_ 1 := (fun x v => Host.reduce IntOp.andi x v reducesTo_S640000_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg5 main_arg6 main_arg9 main_arg10 main_v33

def fn {F : FTy → Type} [FloatOps F] (main_arg0 : FVec F S20000x64 .f32) (main_arg1 : FVec F S640000x64 .f32) (main_arg2 : FVec F S16x64 .f32) (main_arg3 : FVec F S20000 .f32) (main_arg4 : FVec F S640000 .f32) (main_arg5 : IVec S2x640000 32) (main_arg6 : IVec S640000 32) (main_arg7 : FVec F S256x128 .f32) (main_arg8 : FVec F S128 .f32) (main_arg9 : FVec F S128x64 .f32) (main_arg10 : FVec F S64 .f32) : IVec S_ 1 :=
  let main_v0 : FVec F S20000x64 .f32 := Host.absf main_arg0
  let main_cst : FVec F S_ .f32 := constant S_ .f32 0x7F800000#32
  let main_v1 : FVec F S20000x64 .f32 := broadcastInDim S20000x64 ![] bcast_S_S20000x64 main_cst
  let main_v2 : IVec S20000x64 1 := cmpf .olt main_v0 main_v1
  let main_c : IVec S_ 1 := constantI S_ 1 1#1
  let main_v3 : IVec S_ 1 := (fun x v => Host.reduce IntOp.andi x v reducesTo_S20000x64_S_d0_1 h_S_) main_v2 main_c
  let main_v4 : FVec F S640000x64 .f32 := Host.absf main_arg1
  let main_cst_0 : FVec F S_ .f32 := constant S_ .f32 0x7F800000#32
  let main_v5 : FVec F S640000x64 .f32 := broadcastInDim S640000x64 ![] bcast_S_S640000x64 main_cst_0
  let main_v6 : IVec S640000x64 1 := cmpf .olt main_v4 main_v5
  let main_c_1 : IVec S_ 1 := constantI S_ 1 1#1
  let main_v7 : IVec S_ 1 := (fun x v => Host.reduce IntOp.andi x v reducesTo_S640000x64_S_d0_1 h_S_) main_v6 main_c_1
  let main_v8 : IVec S_ 1 := andi main_v3 main_v7
  let main_v9 : FVec F S16x64 .f32 := Host.absf main_arg2
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S20000 .f32 := Host.absf main_arg3
  let main_cst_4 : FVec F S_ .f32 := constant S_ .f32 0x7F800000#32
  let main_v15 : FVec F S20000 .f32 := broadcastInDim S20000 ![] bcast_S_S20000 main_cst_4
  let main_v16 : IVec S20000 1 := cmpf .olt main_v14 main_v15
  fn_part1 (F := F) main_arg4 main_arg5 main_arg6 main_arg7 main_arg8 main_arg9 main_arg10 main_v13 main_v16
-- ==== Kernel.lean ====
abbrev S20000x64 : Shape := ⟨2, ![20000, 64]⟩
abbrev S640000x64 : Shape := ⟨2, ![640000, 64]⟩
abbrev S16x64 : Shape := ⟨2, ![16, 64]⟩
abbrev S20000 : Shape := ⟨1, ![20000]⟩
abbrev S640000 : Shape := ⟨1, ![640000]⟩
abbrev S2x640000 : Shape := ⟨2, ![2, 640000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S20000x1 : Shape := ⟨2, ![20000, 1]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S1x128 : Shape := ⟨2, ![1, 128]⟩
abbrev S1x64 : Shape := ⟨2, ![1, 64]⟩
abbrev S4000x64 : Shape := ⟨2, ![4000, 64]⟩
abbrev S4000x1 : Shape := ⟨2, ![4000, 1]⟩
abbrev S64x128 : Shape := ⟨2, ![64, 128]⟩
abbrev S4000x128 : Shape := ⟨2, ![4000, 128]⟩

abbrev nBuf : Space → Nat
  | .hbm => 91
  | .vmem => 16
  | .smem => 0
  | _ => 0

abbrev bufTy : (tb : Table) → Fin (tcTables nBuf tb) → BufTy
  | .hbm, ⟨0, _⟩ => ⟨S20000x64, .f32⟩
  | .hbm, ⟨1, _⟩ => ⟨S640000x64, .f32⟩
  | .hbm, ⟨2, _⟩ => ⟨S16x64, .f32⟩
  | .hbm, ⟨3, _⟩ => ⟨S20000, .f32⟩
  | .hbm, ⟨4, _⟩ => ⟨S640000, .f32⟩
  | .hbm, ⟨5, _⟩ => ⟨S2x640000, .i32⟩
  | .hbm, ⟨6, _⟩ => ⟨S640000, .i32⟩
  | .hbm, ⟨7, _⟩ => ⟨S256x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S20000x1, .f32⟩
  | .hbm, ⟨16, _⟩ => ⟨S20000x64, .f32⟩
  | .hbm, ⟨17, _⟩ => ⟨S20000x64, .f32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S1, .i32⟩
  | .hbm, ⟨27, _⟩ => ⟨S_, .i32⟩
  | .hbm, ⟨28, _⟩ => ⟨S640000x1, .i32⟩
  | .hbm, ⟨29, _⟩ => ⟨S640000x1, .i1⟩
  | .hbm, ⟨30, _⟩ => ⟨S1x1, .i32⟩
  | .hbm, ⟨31, _⟩ => ⟨S640000x1, .i32⟩
  | .hbm, ⟨32, _⟩ => ⟨S640000x1, .i1⟩
  | .hbm, ⟨33, _⟩ => ⟨S640000x1, .i1⟩
  | .hbm, ⟨34, _⟩ => ⟨S_, .i1⟩
  | .hbm, ⟨35, _⟩ => ⟨S640000, .i1⟩
  | .hbm, ⟨36, _⟩ => ⟨S640000x64, .f32⟩
  | .hbm, ⟨37, _⟩ => ⟨S640000x64, .i1⟩
  | .hbm, ⟨38, _⟩ => ⟨S_, .f32⟩
  | .hbm, ⟨39, _⟩ => ⟨S640000x64, .f32⟩
  | .hbm, ⟨40, _⟩ => ⟨S640000x64, .f32⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S1, .i32⟩
  | .hbm, ⟨50, _⟩ => ⟨S_, .i32⟩
  | .hbm, ⟨51, _⟩ => ⟨S640000x1, .i32⟩
  | .hbm, ⟨52, _⟩ => ⟨S640000x1, .i1⟩
  | .hbm, ⟨53, _⟩ => ⟨S1x1, .i32⟩
  | .hbm, ⟨54, _⟩ => ⟨S640000x1, .i32⟩
  | .hbm, ⟨55, _⟩ => ⟨S640000x1, .i1⟩
  | .hbm, ⟨56, _⟩ => ⟨S640000x1, .i1⟩
  | .hbm, ⟨57, _⟩ => ⟨S_, .i1⟩
  | .hbm, ⟨58, _⟩ => ⟨S640000, .i1⟩
  | .hbm, ⟨59, _⟩ => ⟨S640000x64, .f32⟩
  | .hbm, ⟨60, _⟩ => ⟨S640000x64, .i1⟩
  | .hbm, ⟨61, _⟩ => ⟨S_, .f32⟩
  | .hbm, ⟨62, _⟩ => ⟨S640000x64, .f32⟩
  | .hbm, ⟨63, _⟩ => ⟨S640000x64, .f32⟩
  | .hbm, ⟨64, _⟩ => ⟨S_, .i32⟩
  | .hbm, ⟨65, _⟩ => ⟨S640000, .i32⟩
  | .hbm, ⟨66, _⟩ => ⟨S640000, .i1⟩
  | .hbm, ⟨67, _⟩ => ⟨S_, .i32⟩
  | .hbm, ⟨68, _⟩ => ⟨S640000, .i32⟩
  | .hbm, ⟨69, _⟩ => ⟨S640000, .i32⟩
  | .hbm, ⟨70, _⟩ => ⟨S640000, .i32⟩
  | .hbm, ⟨71, _⟩ => ⟨S640000x1, .i32⟩
  | .hbm, ⟨72, _⟩ => ⟨S1, .i32⟩
  | .hbm, ⟨73, _⟩ => ⟨S_, .i32⟩
  | .hbm, ⟨74, _⟩ => ⟨S640000x1, .i32⟩
  | .hbm, ⟨75, _⟩ => ⟨S640000x1, .i1⟩
  | .hbm, ⟨76, _⟩ => ⟨S1x1, .i32⟩
  | .hbm, ⟨77, _⟩ => ⟨S640000x1, .i32⟩
  | .hbm, ⟨78, _⟩ => ⟨S640000x1, .i1⟩
  | .hbm, ⟨79, _⟩ => ⟨S640000x1, .i1⟩
  | .hbm, ⟨80, _⟩ => ⟨S_, .i1⟩
  | .hbm, ⟨81, _⟩ => ⟨S640000, .i1⟩
  | .hbm, ⟨82, _⟩ => ⟨S640000x64, .f32⟩
  | .hbm, ⟨83, _⟩ => ⟨S640000x64, .i1⟩
  | .hbm, ⟨84, _⟩ => ⟨S_, .f32⟩
  | .hbm, ⟨85, _⟩ => ⟨S640000x64, .f32⟩
  | .hbm, ⟨86, _⟩ => ⟨S640000x64, .f32⟩
  | .hbm, ⟨87, _⟩ => ⟨S640000x1, .f32⟩
  | .hbm, ⟨88, _⟩ => ⟨S1x128, .f32⟩
  | .hbm, ⟨89, _⟩ => ⟨S1x64, .f32⟩
  | .hbm, ⟨90, _⟩ => ⟨S640000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x1, .f32⟩
  | .local _ .vmem, ⟨9, _⟩ => ⟨S4000x1, .f32⟩
  | .local _ .vmem, ⟨10, _⟩ => ⟨S256x128, .f32⟩
  | .local _ .vmem, ⟨11, _⟩ => ⟨S1x128, .f32⟩
  | .local _ .vmem, ⟨12, _⟩ => ⟨S128x64, .f32⟩
  | .local _ .vmem, ⟨13, _⟩ => ⟨S1x64, .f32⟩
  | .local _ .vmem, ⟨14, _⟩ => ⟨S4000x64, .f32⟩
  | .local _ .vmem, ⟨15, _⟩ => ⟨S4000x64, .f32⟩
  | _, _ => ⟨S20000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v7 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v8 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_call2_cst : Ref sig .tc := ⟨.hbm, 84, rfl⟩
abbrev main_call2_v15 : Ref sig .tc := ⟨.hbm, 85, rfl⟩
abbrev main_v9 : Ref sig .tc := ⟨.hbm, 86, rfl⟩
abbrev main_v10 : Ref sig .tc := ⟨.hbm, 87, rfl⟩
abbrev main_v11 : Ref sig .tc := ⟨.hbm, 88, rfl⟩
abbrev main_v12 : Ref sig .tc := ⟨.hbm, 89, rfl⟩
abbrev main_v13 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S20000_S20000x1_0 : S20000.BroadcastsInDim S20000x1 (![0] : Fin 1 → Fin S20000x1.rank)
  bcast_S20000x1_S20000x64_0_1 : S20000x1.BroadcastsInDim S20000x64 (![0, 1] : Fin 2 → Fin S20000x64.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x64_0 : S640000.BroadcastsInDim S640000x64 (![0] : Fin 1 → Fin S640000x64.rank)
  bcast_S_S640000x64 : S_.BroadcastsInDim S640000x64 (![] : Fin 0 → Fin S640000x64.rank)
  bcast_S128_S1x128_1 : S128.BroadcastsInDim S1x128 (![1] : Fin 1 → Fin S1x128.rank)
  bcast_S64_S1x64_1 : S64.BroadcastsInDim S1x64 (![1] : Fin 1 → Fin S1x64.rank)
  inb_S256x128_S256x128_0_0 : ∀ a, (![0, 0] : Fin 2 → Nat) a + S256x128.size a ≤ S256x128.size a
  h_S256x128 : 0 < S256x128.numel
  slices_S256x128_o0_0_S64x128 : S256x128.Slices ![0, 0] S64x128
  bitsLt_bf16_f32 : FTy.bits .bf16 < FTy.bits .f32
  slices_S256x128_o64_0_S64x128 : S256x128.Slices ![64, 0] S64x128
  slices_S256x128_o128_0_S64x128 : S256x128.Slices ![128, 0] S64x128
  slices_S256x128_o192_0_S64x128 : S256x128.Slices ![192, 0] S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  gather_S20000x64_S640000x1_S640000x64_1_0_n_n_0_1_164_wf : GatherDims.WF S20000x64 S640000x1 S640000x64 [1] [0] [] [0] [] 1 ![1, 64]
  gather_S16x64_S640000x1_S640000x64_1_0_n_n_0_1_164_wf : GatherDims.WF S16x64 S640000x1 S640000x64 [1] [0] [] [0] [] 1 ![1, 64]
  dot_S4000x64_S64x128_S4000x128_1_0_0_1_n_n_wf : DotDims.WF S4000x64 S64x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S640000x64.size a
  hwx0_0 : ∀ i : grid0.Coords, EltTy.bits .f32 = 32 ∨ (Rect.block (s := S640000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S640000x64.size a
  hwx0_1 : ∀ i : grid0.Coords, EltTy.bits .f32 = 32 ∨ (Rect.block (s := S640000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S640000x64.size a
  hwx0_2 : ∀ i : grid0.Coords, EltTy.bits .f32 = 32 ∨ (Rect.block (s := S640000x64) S4000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S640000x64.size a
  hwx0_3 : ∀ i : grid0.Coords, EltTy.bits .f32 = 32 ∨ (Rect.block (s := S640000x64) S4000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x1.size a ≤ S640000x1.size a
  hwx0_4 : ∀ i : grid0.Coords, EltTy.bits .f32 = 32 ∨ (Rect.block (s := S640000x1) S4000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x64.size a ≤ S640000x64.size a
  hwx0_9 : ∀ i : grid0.Coords, EltTy.bits .f32 = 32 ∨ (Rect.block (s := S640000x64) S4000x64.size (cc0_transform_9 i) (hinb0_9 i)).WholeWords (EltTy.packing .f32)

variable [Facts₀]

def gather_S20000x64_S640000x1_S640000x64_1_0_n_n_0_1_164 : GatherDims S20000x64 S640000x1 S640000x64 where
  offsetDims := [1]
  collapsedSliceDims := [0]
  operandBatchingDims := []
  startIndicesBatchingDims := []
  startIndexMap := [0]
  indexVectorDim := 1
  sliceSizes := ![1, 64]
  wf := gather_S20000x64_S640000x1_S640000x64_1_0_n_n_0_1_164_wf
def gather_S16x64_S640000x1_S640000x64_1_0_n_n_0_1_164 : GatherDims S16x64 S640000x1 S640000x64 where
  offsetDims := [1]
  collapsedSliceDims := [0]
  operandBatchingDims := []
  startIndicesBatchingDims := []
  startIndexMap := [0]
  indexVectorDim := 1
  sliceSizes := ![1, 64]
  wf := gather_S16x64_S640000x1_S640000x64_1_0_n_n_0_1_164_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_arg1) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S4000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S4000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S4000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S20000x64 : Shape := ⟨2, ![20000, 64]⟩
abbrev S640000x64 : Shape := ⟨2, ![640000, 64]⟩
abbrev S16x64 : Shape := ⟨2, ![16, 64]⟩
abbrev S20000 : Shape := ⟨1, ![20000]⟩
abbrev S640000 : Shape := ⟨1, ![640000]⟩
abbrev S2x640000 : Shape := ⟨2, ![2, 640000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S20000x1 : Shape := ⟨2, ![20000, 1]⟩
abbrev S_ : Shape := ⟨0, ![]⟩
abbrev S640000x1 : Shape := ⟨2, ![640000, 1]⟩
abbrev S640000x256 : Shape := ⟨2, ![640000, 256]⟩
abbrev S640000x128 : Shape := ⟨2, ![640000, 128]⟩
abbrev S1x128 : Shape := ⟨2, ![1, 128]⟩
abbrev S1x64 : Shape := ⟨2, ![1, 64]⟩

abbrev nBuf : Space → Nat
  | .hbm => 60
  | .vmem => 0
  | .smem => 0
  | _ => 0

abbrev bufTy : (tb : Table) → Fin (tcTables nBuf tb) → BufTy
  | .hbm, ⟨0, _⟩ => ⟨S20000x64, .f32⟩
  | .hbm, ⟨1, _⟩ => ⟨S640000x64, .f32⟩
  | .hbm, ⟨2, _⟩ => ⟨S16x64, .f32⟩
  | .hbm, ⟨3, _⟩ => ⟨S20000, .f32⟩
  | .hbm, ⟨4, _⟩ => ⟨S640000, .f32⟩
  | .hbm, ⟨5, _⟩ => ⟨S2x640000, .i32⟩
  | .hbm, ⟨6, _⟩ => ⟨S640000, .i32⟩
  | .hbm, ⟨7, _⟩ => ⟨S256x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S20000x1, .f32⟩
  | .hbm, ⟨16, _⟩ => ⟨S20000x64, .f32⟩
  | .hbm, ⟨17, _⟩ => ⟨S20000x64, .f32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x64, .f32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000x64, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000x64, .f32⟩
  | .hbm, ⟨45, _⟩ => ⟨S640000x256, .f32⟩
  | .hbm, ⟨46, _⟩ => ⟨S640000x128, .f32⟩
  | .hbm, ⟨47, _⟩ => ⟨S1x128, .f32⟩
  | .hbm, ⟨48, _⟩ => ⟨S640000x128, .f32⟩
  | .hbm, ⟨49, _⟩ => ⟨S640000x128, .f32⟩
  | .hbm, ⟨50, _⟩ => ⟨S_, .f32⟩
  | .hbm, ⟨51, _⟩ => ⟨S640000x128, .f32⟩
  | .hbm, ⟨52, _⟩ => ⟨S640000x128, .f32⟩
  | .hbm, ⟨53, _⟩ => ⟨S640000x64, .f32⟩
  | .hbm, ⟨54, _⟩ => ⟨S1x64, .f32⟩
  | .hbm, ⟨55, _⟩ => ⟨S640000x64, .f32⟩
  | .hbm, ⟨56, _⟩ => ⟨S640000x64, .f32⟩
  | .hbm, ⟨57, _⟩ => ⟨S640000x1, .f32⟩
  | .hbm, ⟨58, _⟩ => ⟨S640000x64, .f32⟩
  | .hbm, ⟨59, _⟩ => ⟨S640000x64, .f32⟩
  | _, _ => ⟨S20000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S20000_S20000x1_0 : S20000.BroadcastsInDim S20000x1 (![0] : Fin 1 → Fin S20000x1.rank)
  bcast_S20000x1_S20000x64_0_1 : S20000x1.BroadcastsInDim S20000x64 (![0, 1] : Fin 2 → Fin S20000x64.rank)
  bcast_S_S640000 : S_.BroadcastsInDim S640000 (![] : Fin 0 → Fin S640000.rank)
  bcast_S640000_S640000x1_0 : S640000.BroadcastsInDim S640000x1 (![0] : Fin 1 → Fin S640000x1.rank)
  concatenates_S640000x64_S640000x64_S640000x64_S640000x64_S640000x256_d1 : Shape.Concatenates [S640000x64, S640000x64, S640000x64, S640000x64] S640000x256 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S64_S1x64_1 : S64.BroadcastsInDim S1x64 (![1] : Fin 1 → Fin S1x64.rank)
  bcast_S1x64_S640000x64_0_1 : S1x64.BroadcastsInDim S640000x64 (![0, 1] : Fin 2 → Fin S640000x64.rank)
  bcast_S640000x1_S640000x64_0_1 : S640000x1.BroadcastsInDim S640000x64 (![0, 1] : Fin 2 → Fin S640000x64.rank)
  gather_S20000x64_S640000x1_S640000x64_1_0_n_n_0_1_164_wf : GatherDims.WF S20000x64 S640000x1 S640000x64 [1] [0] [] [0] [] 1 ![1, 64]
  gather_S16x64_S640000x1_S640000x64_1_0_n_n_0_1_164_wf : GatherDims.WF S16x64 S640000x1 S640000x64 [1] [0] [] [0] [] 1 ![1, 64]
  dot_S640000x256_S256x128_S640000x128_1_0_0_1_n_n_wf : DotDims.WF S640000x256 S256x128 S640000x128 [1] [0] [0] [1] [] []
  dot_S640000x128_S128x64_S640000x64_1_0_0_1_n_n_wf : DotDims.WF S640000x128 S128x64 S640000x64 [1] [0] [0] [1] [] []

variable [Facts₀]

def gather_S20000x64_S640000x1_S640000x64_1_0_n_n_0_1_164 : GatherDims S20000x64 S640000x1 S640000x64 where
  offsetDims := [1]
  collapsedSliceDims := [0]
  operandBatchingDims := []
  startIndicesBatchingDims := []
  startIndexMap := [0]
  indexVectorDim := 1
  sliceSizes := ![1, 64]
  wf := gather_S20000x64_S640000x1_S640000x64_1_0_n_n_0_1_164_wf
def gather_S16x64_S640000x1_S640000x64_1_0_n_n_0_1_164 : GatherDims S16x64 S640000x1 S640000x64 where
  offsetDims := [1]
  collapsedSliceDims := [0]
  operandBatchingDims := []
  startIndicesBatchingDims := []
  startIndexMap := [0]
  indexVectorDim := 1
  sliceSizes := ![1, 64]
  wf := gather_S16x64_S640000x1_S640000x64_1_0_n_n_0_1_164_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def dot_S640000x128_S128x64_S640000x64_1_0_0_1_n_n : DotDims S640000x128 S128x64 S640000x64 where
  lhsContracting := [1]
  rhsContracting := [0]
  lhsNonContracting := [0]
  rhsNonContracting := [1]
  lhsBatch := []
  rhsBatch := []
  wf := dot_S640000x128_S128x64_S640000x64_1_0_0_1_n_n_wf

class Facts : Prop extends Facts₀ where

variable [Facts]
-- ==== Proof.Spec.lean ====
/-
  The edge update, one edge at a time, over the extended reals. An edge carries four feature rows of 64 numbers
  (its own attributes, its sender's, its receiver's and its graph's) and a mask weight. The update is a two-layer
  perceptron on the 256 joined features: hidden unit k is max(0, Σ_p joined_p · W1[p, k] + b1[k]), output j is
  mask · (Σ_k hidden_k · W2[k, j] + b2[j]).

  The first layer can be taken in two ways: as ONE sum over the 256 joined features, or as FOUR sums of 64, one per
  feature row, against the four row blocks of W1 (rows 0-63, 64-127, 128-191, 192-255), added left to right. The two
  are equal in any additive commutative monoid: a sum over 256 = 64 + 64 + 64 + 64 consecutive terms is the sum of
  the four partial sums. Nothing but the grouping of a finite sum is used, so no finiteness of the entries is needed
  (the extended reals' addition is commutative and associative at the infinities too).
-/
import Mathlib.Algebra.BigOperators.Fin
import Mathlib.Data.EReal.Basic

open scoped BigOperators

noncomputable section

namespace Cert.EdgeMlp

/-- Row q of the first row block of a 256-row matrix. -/
abbrev rowA (q : Fin 64) : Fin 256 := ⟨q.val, by omega⟩
/-- Row q of the second row block: row 64 + q. -/
abbrev rowB (q : Fin 64) : Fin 256 := ⟨64 + q.val, by omega⟩
/-- Row q of the third row block: row 128 + q. -/
abbrev rowC (q : Fin 64) : Fin 256 := ⟨128 + q.val, by omega⟩
/-- Row q of the fourth row block: row 192 + q. -/
abbrev rowD (q : Fin 64) : Fin 256 := ⟨192 + q.val, by omega⟩

/-- A sum of 256 terms is the sum of its four consecutive blocks of 64, added left to right. -/
theorem sum256_blocks {M : Type*} [AddCommMonoid M] (f : Fin 256 → M) :
    ∑ p : Fin 256, f p
      = (((∑ q : Fin 64, f (rowA q)) + ∑ q : Fin 64, f (rowB q)) + ∑ q : Fin 64, f (rowC q)) + ∑ q : Fin 64, f (rowD q) := by
  have h3 := Fin.sum_univ_add (M := M) (a := 64 + 64 + 64) (b := 64) f
  have h2 := Fin.sum_univ_add (M := M) (a := 64 + 64) (b := 64) (fun i => f (Fin.castAdd 64 i))
  have h1 := Fin.sum_univ_add (M := M) (a := 64) (b := 64) (fun i => f (Fin.castAdd 64 (Fin.castAdd 64 i)))
  rw [h2, h1] at h3
  exact h3

/-- Hidden pre-activation of unit k from the four feature rows, each against its own row block of W1. -/
def hiddenSplit (ea sa ra ga : Fin 64 → EReal) (W1 : Fin 256 → Fin 128 → EReal) (b1 : Fin 128 → EReal) (k : Fin 128) : EReal :=
  ((((∑ q : Fin 64, ea q * W1 (rowA q) k) + ∑ q : Fin 64, sa q * W1 (rowB q) k) + ∑ q : Fin 64, ra q * W1 (rowC q) k)
    + ∑ q : Fin 64, ga q * W1 (rowD q) k) + b1 k

/-- Hidden pre-activation of unit k from the 256 joined features against the whole of W1. -/
def hiddenJoined (x : Fin 256 → EReal) (W1 : Fin 256 → Fin 128 → EReal) (b1 : Fin 128 → EReal) (k : Fin 128) : EReal :=
  (∑ p : Fin 256, x p * W1 p k) + b1 k

/-- When the joined row holds the four feature rows one after the other, the two first layers agree. -/
theorem hiddenJoined_eq_split (x : Fin 256 → EReal) (ea sa ra ga : Fin 64 → EReal)
    (hA : ∀ q, x (rowA q) = ea q) (hB : ∀ q, x (rowB q) = sa q) (hC : ∀ q, x (rowC q) = ra q) (hD : ∀ q, x (rowD q) = ga q)
    (W1 : Fin 256 → Fin 128 → EReal) (b1 : Fin 128 → EReal) (k : Fin 128) :
    hiddenJoined x W1 b1 k = hiddenSplit ea sa ra ga W1 b1 k := by
  unfold hiddenJoined hiddenSplit
  rw [sum256_blocks (fun p => x p * W1 p k)]
  simp only [hA, hB, hC, hD]

/-- Output j of an edge from its hidden pre-activations: rectify, second layer, bias, mask. -/
def edgeOut (h : Fin 128 → EReal) (mask : EReal) (W2 : Fin 128 → Fin 64 → EReal) (b2 : Fin 64 → EReal) (j : Fin 64) : EReal :=
  mask * ((∑ k : Fin 128, max (h k) 0 * W2 k j) + b2 j)

end Cert.EdgeMlp

end
-- ==== Proof.KernelRow.lean ====
/-
  What the kernel's body leaves for one edge. At a grid point the body holds a block of 4000 edges: their four
  feature rows (four 4000 x 64 blocks), their mask weights (a 4000 x 1 column) and the whole parameter arrays. It
  multiplies each feature block by its own 64-row block of W1 (rows 0-63, 64-127, 128-191, 192-255: four slices of
  the loaded 256 x 128 array), adds the four products left to right, adds b1, rectifies, multiplies by W2, adds b2 and
  scales each row by its mask weight. Changes of float format are the identity on extended reals, and a matrix
  product into a zero accumulator is, entry by entry, the sum over the contracted coordinate of the products. So
  entry (r, j) of the result is the edge update of Spec.lean applied to row r of the four feature blocks.
-/
import proofs.«425902_j16449724745525_2_alg».proof.Proof.Gen.KernelIdeal.Frame
import proofs.«425902_j16449724745525_2_alg».proof.Proof.Spec
import Idealize.ShloMosaic.Lib.Pipeline.Value
import Idealize.ShloMosaic.Lib.ValueIdx
import Idealize.ShloMosaic.PureOps.Ideal.Laws

set_option maxRecDepth 16384

open scoped BigOperators

noncomputable section

namespace Cert.KernelIdeal.RowValue

open Cert.KernelIdeal Cert.KernelIdeal.Gen Idealize.ShloMosaic Idealize.ShloMosaic.ValueIdx Cert.EdgeMlp

/-! ## The first layer's products: [4000, 64] x [64, 128] -/

theorem lhs1_0 (i : S4000x128.Idx) (q : dot_S4000x64_S64x128_S4000x128_1_0_0_1_n_n.contr.Idx) :
    (dot_S4000x64_S64x128_S4000x128_1_0_0_1_n_n.lhsIdx i q 0).val = (i 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl
theorem lhs1_1 (i : S4000x128.Idx) (q : dot_S4000x64_S64x128_S4000x128_1_0_0_1_n_n.contr.Idx) :
    (dot_S4000x64_S64x128_S4000x128_1_0_0_1_n_n.lhsIdx i q 1).val = (q ⟨0, by decide⟩).val :=
  dot_S4000x64_S64x128_S4000x128_1_0_0_1_n_n.lhsIdx_val_of_single rfl i q
theorem rhs1_0 (i : S4000x128.Idx) (q : dot_S4000x64_S64x128_S4000x128_1_0_0_1_n_n.contr.Idx) :
    (dot_S4000x64_S64x128_S4000x128_1_0_0_1_n_n.rhsIdx i q 0).val = (q ⟨0, by decide⟩).val :=
  dot_S4000x64_S64x128_S4000x128_1_0_0_1_n_n.rhsIdx_val_of_single rfl i q
theorem rhs1_1 (i : S4000x128.Idx) (q : dot_S4000x64_S64x128_S4000x128_1_0_0_1_n_n.contr.Idx) :
    (dot_S4000x64_S64x128_S4000x128_1_0_0_1_n_n.rhsIdx i q 1).val = (i 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

/-- Entry (p, k) of a block's product with a 64-row block of weights: the sum over the 64 features. -/
theorem matmul1_apply (l : FVec Ideal S4000x64 .bf16) (r : FVec Ideal S64x128 .bf16) (p : Fin 4000) (k : Fin 128) :
    matmul dot_S4000x64_S64x128_S4000x128_1_0_0_1_n_n none l r (constant S4000x128 .f32 0x00000000#32) (ix2 p k)
      = ∑ q : Fin 64, l (ix2 p q) * r (ix2 q k) := by
  simp only [matmul]
  rw [Ideal.matmul_constant_zero_apply, ← Equiv.sum_comp (ValueIdx.contrEquiv1 dot_S4000x64_S64x128_S4000x128_1_0_0_1_n_n 64 rfl rfl).symm]
  refine Finset.sum_congr rfl fun q _ => ?_
  have hk := ValueIdx.contrEquiv1_symm_val dot_S4000x64_S64x128_S4000x128_1_0_0_1_n_n 64 rfl rfl q
  have el : dot_S4000x64_S64x128_S4000x128_1_0_0_1_n_n.lhsIdx (ix2 p k) ((ValueIdx.contrEquiv1 dot_S4000x64_S64x128_S4000x128_1_0_0_1_n_n 64 rfl rfl).symm q) = ix2 p q := funext fun a => Fin.ext (by
    match a with
    | ⟨0, _⟩ => exact lhs1_0 _ _
    | ⟨1, _⟩ => exact (lhs1_1 _ _).trans hk)
  have er : dot_S4000x64_S64x128_S4000x128_1_0_0_1_n_n.rhsIdx (ix2 p k) ((ValueIdx.contrEquiv1 dot_S4000x64_S64x128_S4000x128_1_0_0_1_n_n 64 rfl rfl).symm q) = ix2 q k := funext fun a => Fin.ext (by
    match a with
    | ⟨0, _⟩ => exact (rhs1_0 _ _).trans hk
    | ⟨1, _⟩ => exact rhs1_1 _ _)
  rw [el, er]

/-! ## The second layer's product: [4000, 128] x [128, 64] -/

theorem lhs2_0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem lhs2_1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
theorem rhs2_0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
theorem rhs2_1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- Entry (p, j) of the hidden block's product with W2: the sum over the 128 hidden units. -/
theorem matmul2_apply (l : FVec Ideal S4000x128 .bf16) (r : FVec Ideal S128x64 .bf16) (p : Fin 4000) (j : Fin 64) :
    matmul dot_S4000x128_S128x64_S4000x64_1_0_0_1_n_n none l r (constant S4000x64 .f32 0x00000000#32) (ix2 p j)
      = ∑ k : Fin 128, l (ix2 p k) * r (ix2 k j) := by
  simp only [matmul]
  rw [Ideal.matmul_constant_zero_apply, ← Equiv.sum_comp (ValueIdx.contrEquiv1 dot_S4000x128_S128x64_S4000x64_1_0_0_1_n_n 128 rfl rfl).symm]
  refine Finset.sum_congr rfl fun q _ => ?_
  have hk := ValueIdx.contrEquiv1_symm_val dot_S4000x128_S128x64_S4000x64_1_0_0_1_n_n 128 rfl rfl q
  have el : dot_S4000x128_S128x64_S4000x64_1_0_0_1_n_n.lhsIdx (ix2 p j) ((ValueIdx.contrEquiv1 dot_S4000x128_S128x64_S4000x64_1_0_0_1_n_n 128 rfl rfl).symm q) = ix2 p q := funext fun a => Fin.ext (by
    match a with
    | ⟨0, _⟩ => exact lhs2_0 _ _
    | ⟨1, _⟩ => exact (lhs2_1 _ _).trans hk)
  have er : dot_S4000x128_S128x64_S4000x64_1_0_0_1_n_n.rhsIdx (ix2 p j) ((ValueIdx.contrEquiv1 dot_S4000x128_S128x64_S4000x64_1_0_0_1_n_n 128 rfl rfl).symm q) = ix2 q j := funext fun a => Fin.ext (by
    match a with
    | ⟨0, _⟩ => exact (rhs2_0 _ _).trans hk
    | ⟨1, _⟩ => exact rhs2_1 _ _)
  rw [el, er]

/-! ## The four row blocks of W1 -/

theorem w1A_apply (w : Vec Ideal S256x128 .f32) (q : Fin 64) (k : Fin 128) :
    extractStridedSlice S64x128 ![0, 0] w slices_S256x128_o0_0_S64x128 (ix2 q k) = w (ix2 (rowA q) k) :=
  extractStridedSlice_apply ![0, 0] w slices_S256x128_o0_0_S64x128 (ix2 q k) (ix2 (rowA q) k) (fun a => match a with
    | ⟨0, _⟩ => by show q.val = 0 + q.val; omega
    | ⟨1, _⟩ => by show k.val = 0 + k.val; omega)
theorem w1B_apply (w : Vec Ideal S256x128 .f32) (q : Fin 64) (k : Fin 128) :
    extractStridedSlice S64x128 ![64, 0] w slices_S256x128_o64_0_S64x128 (ix2 q k) = w (ix2 (rowB q) k) :=
  extractStridedSlice_apply ![64, 0] w slices_S256x128_o64_0_S64x128 (ix2 q k) (ix2 (rowB q) k) (fun a => match a with
    | ⟨0, _⟩ => by show 64 + q.val = 64 + q.val; rfl
    | ⟨1, _⟩ => by show k.val = 0 + k.val; omega)
theorem w1C_apply (w : Vec Ideal S256x128 .f32) (q : Fin 64) (k : Fin 128) :
    extractStridedSlice S64x128 ![128, 0] w slices_S256x128_o128_0_S64x128 (ix2 q k) = w (ix2 (rowC q) k) :=
  extractStridedSlice_apply ![128, 0] w slices_S256x128_o128_0_S64x128 (ix2 q k) (ix2 (rowC q) k) (fun a => match a with
    | ⟨0, _⟩ => by show 128 + q.val = 128 + q.val; rfl
    | ⟨1, _⟩ => by show k.val = 0 + k.val; omega)
theorem w1D_apply (w : Vec Ideal S256x128 .f32) (q : Fin 64) (k : Fin 128) :
    extractStridedSlice S64x128 ![192, 0] w slices_S256x128_o192_0_S64x128 (ix2 q k) = w (ix2 (rowD q) k) :=
  extractStridedSlice_apply ![192, 0] w slices_S256x128_o192_0_S64x128 (ix2 q k) (ix2 (rowD q) k) (fun a => match a with
    | ⟨0, _⟩ => by show 192 + q.val = 192 + q.val; rfl
    | ⟨1, _⟩ => by show k.val = 0 + k.val; omega)

/-! ## The rectified hidden block -/

theorem b1_apply (v : Vec Ideal S1x128 .f32) (p : Fin 4000) (k : Fin 128) :
    broadcastTo S4000x128 v broadcasts_S1x128_S4000x128 (ix2 p k) = v (ix2 0 k) := by
  exact broadcastTo_apply v broadcasts_S1x128_S4000x128 (ix2 p k) (ix2 0 k) (fun a => match a with
    | ⟨0, _⟩ => rfl
    | ⟨1, _⟩ => rfl)

/-- Entry (p, k) of the rectified hidden block: hidden unit k of the block's edge p. -/
theorem hidden_apply (w1 : Vec Ideal S256x128 .f32) (b1 : Vec Ideal S1x128 .f32) (ea sa ra ga : Vec Ideal S4000x64 .f32)
    (p : Fin 4000) (k : Fin 128) :
    k0_pay2 w1 b1 ea sa ra ga (ix2 p k)
      = max (hiddenSplit (fun q => ea (ix2 p q)) (fun q => sa (ix2 p q)) (fun q => ra (ix2 p q)) (fun q => ga (ix2 p q))
          (fun r c => w1 (ix2 r c)) (fun c => b1 (ix2 0 c)) k) 0 := by
  unfold k0_pay2
  simp only [shapeCast_self]
  simp only [truncf_apply, maximumf_apply, addf_apply, broadcast_apply, matmul1_apply]
  unfold hiddenSplit
  refine congrArg₂ max ?_ Ideal.ofBits_zero_f32
  refine congrArg₂ (· + ·) (congrArg₂ (· + ·) (congrArg₂ (· + ·) (congrArg₂ (· + ·) ?_ ?_) ?_) ?_) (b1_apply b1 p k)
  · exact Finset.sum_congr rfl fun q _ => by rw [w1A_apply]
  · exact Finset.sum_congr rfl fun q _ => by rw [w1B_apply]
  · exact Finset.sum_congr rfl fun q _ => by rw [w1C_apply]
  · exact Finset.sum_congr rfl fun q _ => by rw [w1D_apply]

/-! ## The block the body stores -/

theorem hz : (![0, 0] : Fin 2 → Nat) = fun _ => 0 := funext fun a => by fin_cases a <;> rfl

theorem b2_apply (v : Vec Ideal S1x64 .f32) (p : Fin 4000) (j : Fin 64) :
    broadcastTo S4000x64 v broadcasts_S1x64_S4000x64 (ix2 p j) = v (ix2 0 j) := by
  exact broadcastTo_apply v broadcasts_S1x64_S4000x64 (ix2 p j) (ix2 0 j) (fun a => match a with
    | ⟨0, _⟩ => rfl
    | ⟨1, _⟩ => rfl)

theorem mask_apply (v : Vec Ideal S4000x1 .f32) (p : Fin 4000) (j : Fin 64) :
    broadcastTo S4000x64 v broadcasts_S4000x1_S4000x64 (ix2 p j) = v (ix2 p 0) := by
  exact broadcastTo_apply v broadcasts_S4000x1_S4000x64 (ix2 p j) (ix2 p 0) (fun a => match a with
    | ⟨0, _⟩ => rfl
    | ⟨1, _⟩ => rfl)

/-- ENTRY (p, j) OF THE STORED BLOCK: output j of the edge update on row p of the four feature blocks, with the
    block's mask weight at row p and the parameter arrays as loaded. -/
theorem out_apply (x0 x1 x2 x3 : Vec Ideal S4000x64 .f32) (x4 : Vec Ideal S4000x1 .f32) (x5 : Vec Ideal S256x128 .f32)
    (x6 : Vec Ideal S1x128 .f32) (x7 : Vec Ideal S128x64 .f32) (x8 : Vec Ideal S1x64 .f32) (p : Fin 4000) (j : Fin 64) :
    out0_9 x0 x1 x2 x3 x4 x5 x6 x7 x8 (ix2 p j)
      = edgeOut (hiddenSplit (fun q => x0 (ix2 p q)) (fun q => x1 (ix2 p q)) (fun q => x2 (ix2 p q)) (fun q => x3 (ix2 p q))
          (fun r c => x5 (ix2 r c)) (fun c => x6 (ix2 0 c))) (x4 (ix2 p 0)) (fun k c => x7 (ix2 k c)) (fun c => x8 (ix2 0 c)) j := by
  unfold out0_9
  rw [View.canon_unit_zero hz]
  simp only [View.ld_unit_zero (S := S4000x64) hz, View.ld_unit_zero (S := S256x128) hz, View.ld_unit_zero (S := S1x128) hz,
    View.ld_unit_zero (S := S128x64) hz, View.ld_unit_zero (S := S1x64) hz, View.ld_unit_zero (S := S4000x1) hz]
  unfold k0_pay1 k0_pay3 k0_pay4
  simp only [shapeCast_self]
  simp only [mulf_apply, addf_apply, matmul2_apply, truncf_apply, hidden_apply]
  rw [mask_apply, b2_apply]
  rfl

end Cert.KernelIdeal.RowValue

end
-- ==== Proof.KernelArray.lean ====
/-
  The kernel's result array. The grid has 160 points; point t holds edges 4000·t … 4000·t + 3999: its blocks of the
  four feature arrays, of the mask column and of the result are rows 4000·t … of those arrays, and its blocks of the
  four parameter arrays are the whole arrays. So what point t writes back is rows 4000·t … of ONE array, the edge
  update of Spec.lean applied edge by edge to the arrays as the region finds them; the 160 blocks tile the 640000
  rows, so after the run the result array IS that array.
-/
import proofs.«425902_j16449724745525_2_alg».proof.Proof.Gen.KernelIdeal.Value
import proofs.«425902_j16449724745525_2_alg».proof.Proof.KernelRow

set_option maxRecDepth 16384

open scoped BigOperators

noncomputable section

namespace Cert.KernelIdeal.ArrayValue

open Cert.KernelIdeal Cert.KernelIdeal.Gen Cert.KernelIdeal.Value Cert.KernelIdeal.RowValue
open Idealize.ShloMosaic Idealize.ShloMosaic.TcCoe Idealize.SL.Sem Idealize.ShloMosaic.ValueIdx Cert.EdgeMlp
open Idealize.ShloMosaic.Pipeline (Dat)

variable (m : (ℓ : Loc nD τ sig) → Buf (Elt Ideal) ℓ) (ρ : Dev nD → PrngReg)

/-! ## The arrays as the region finds them, at their literal types -/

abbrev eaArr (c : Dev nD) : Vec Ideal S640000x64 .f32 := V m c main_arg1
abbrev saArr (c : Dev nD) : Vec Ideal S640000x64 .f32 := V m c main_v7
abbrev raArr (c : Dev nD) : Vec Ideal S640000x64 .f32 := V m c main_v8
abbrev gaArr (c : Dev nD) : Vec Ideal S640000x64 .f32 := V m c main_v9
abbrev mkArr (c : Dev nD) : Vec Ideal S640000x1 .f32 := V m c main_v10
abbrev w1Arr (c : Dev nD) : Vec Ideal S256x128 .f32 := V m c main_arg7
abbrev b1Arr (c : Dev nD) : Vec Ideal S1x128 .f32 := V m c main_v11
abbrev w2Arr (c : Dev nD) : Vec Ideal S128x64 .f32 := V m c main_arg9
abbrev b2Arr (c : Dev nD) : Vec Ideal S1x64 .f32 := V m c main_v12

/-- Edge p of point t's block: edge 4000·t + p of the 640000. -/
def edgeOf (t : Fin cfg0.N) (p : Fin 4000) : Fin 640000 :=
  ⟨4000 * t.val + p.val, by have h1 := t.isLt; have h2 : cfg0.N = 160 := N_0; have h3 := p.isLt; omega⟩

/-- The printed index maps over the grid: the edge windows' block index is (t, 0), the parameter windows' (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-! ## Each window's block at a point, read at an index -/

theorem ea_blk (c : Dev nD) (t : Fin cfg0.N) (p : Fin 4000) (q : Fin 64) :
    (iblk m c 0 t : Vec Ideal S4000x64 .f32) (ix2 p q) = eaArr m c (ix2 (edgeOf t p) q) := by
  obtain ⟨⟨h0, h1⟩, -⟩ := idx_facts t
  unfold iblk
  rw [View.read_apply]
  show V m c main_arg1 _ = V m c main_arg1 _
  congr 1
  funext a
  apply Fin.ext
  match a with
  | ⟨0, _⟩ => show win0_0.index t (0 : Fin 2) * 4000 + 1 * p.val = 4000 * t.val + p.val; rw [h0]; omega
  | ⟨1, _⟩ => show win0_0.index t (1 : Fin 2) * 64 + 1 * q.val = q.val; rw [h1]; omega

theorem read_blk1 (A : Vec Ideal S640000x64 .f32) (t : Fin cfg0.N) (p : Fin 4000) (q : Fin 64) :
    (((cfg0.win 1).blk t).view.read (Elt Ideal) A : Vec Ideal S4000x64 .f32) (ix2 p q) = A (ix2 (edgeOf t p) q) := by
  have hf := idx_facts t
  have h0 : win0_1.index t (0 : Fin 2) = t.val := hf.2.1.1
  have h1 : win0_1.index t (1 : Fin 2) = 0 := hf.2.1.2
  rw [View.read_apply]
  refine congrArg A (funext fun a => Fin.ext ?_)
  match a with
  | ⟨0, _⟩ => show win0_1.index t (0 : Fin 2) * 4000 + 1 * p.val = 4000 * t.val + p.val; rw [h0]; omega
  | ⟨1, _⟩ => show win0_1.index t (1 : Fin 2) * 64 + 1 * q.val = q.val; rw [h1]; omega

theorem sa_blk (c : Dev nD) (t : Fin cfg0.N) (p : Fin 4000) (q : Fin 64) :
    (iblk m c 1 t : Vec Ideal S4000x64 .f32) (ix2 p q) = saArr m c (ix2 (edgeOf t p) q) := by
  unfold iblk
  exact read_blk1 _ t p q

theorem read_blk2 (A : Vec Ideal S640000x64 .f32) (t : Fin cfg0.N) (p : Fin 4000) (q : Fin 64) :
    (((cfg0.win 2).blk t).view.read (Elt Ideal) A : Vec Ideal S4000x64 .f32) (ix2 p q) = A (ix2 (edgeOf t p) q) := by
  have hf := idx_facts t
  have h0 : win0_2.index t (0 : Fin 2) = t.val := hf.2.2.1.1
  have h1 : win0_2.index t (1 : Fin 2) = 0 := hf.2.2.1.2
  rw [View.read_apply]
  refine congrArg A (funext fun a => Fin.ext ?_)
  match a with
  | ⟨0, _⟩ => show win0_2.index t (0 : Fin 2) * 4000 + 1 * p.val = 4000 * t.val + p.val; rw [h0]; omega
  | ⟨1, _⟩ => show win0_2.index t (1 : Fin 2) * 64 + 1 * q.val = q.val; rw [h1]; omega

theorem ra_blk (c : Dev nD) (t : Fin cfg0.N) (p : Fin 4000) (q : Fin 64) :
    (iblk m c 2 t : Vec Ideal S4000x64 .f32) (ix2 p q) = raArr m c (ix2 (edgeOf t p) q) := by
  unfold iblk
  exact read_blk2 _ t p q

theorem read_blk3 (A : Vec Ideal S640000x64 .f32) (t : Fin cfg0.N) (p : Fin 4000) (q : Fin 64) :
    (((cfg0.win 3).blk t).view.read (Elt Ideal) A : Vec Ideal S4000x64 .f32) (ix2 p q) = A (ix2 (edgeOf t p) q) := by
  have hf := idx_facts t
  have h0 : win0_3.index t (0 : Fin 2) = t.val := hf.2.2.2.1.1
  have h1 : win0_3.index t (1 : Fin 2) = 0 := hf.2.2.2.1.2
  rw [View.read_apply]
  refine congrArg A (funext fun a => Fin.ext ?_)
  match a with
  | ⟨0, _⟩ => show win0_3.index t (0 : Fin 2) * 4000 + 1 * p.val = 4000 * t.val + p.val; rw [h0]; omega
  | ⟨1, _⟩ => show win0_3.index t (1 : Fin 2) * 64 + 1 * q.val = q.val; rw [h1]; omega

theorem ga_blk (c : Dev nD) (t : Fin cfg0.N) (p : Fin 4000) (q : Fin 64) :
    (iblk m c 3 t : Vec Ideal S4000x64 .f32) (ix2 p q) = gaArr m c (ix2 (edgeOf t p) q) := by
  unfold iblk
  exact read_blk3 _ t p q

theorem mk_blk (c : Dev nD) (t : Fin cfg0.N) (p : Fin 4000) :
    (iblk m c 4 t : Vec Ideal S4000x1 .f32) (ix2 p 0) = mkArr m c (ix2 (edgeOf t p) 0) := by
  obtain ⟨-, -, -, -, ⟨h0, h1⟩, -⟩ := idx_facts t
  unfold iblk
  rw [View.read_apply]
  show V m c main_v10 _ = V m c main_v10 _
  congr 1
  funext a
  apply Fin.ext
  match a with
  | ⟨0, _⟩ => show win0_4.index t (0 : Fin 2) * 4000 + 1 * p.val = 4000 * t.val + p.val; rw [h0]; omega
  | ⟨1, _⟩ => show win0_4.index t (1 : Fin 2) * 1 + 1 * 0 = 0; rw [h1]

theorem w1_blk (c : Dev nD) (t : Fin cfg0.N) (r : Fin 256) (k : Fin 128) :
    (iblk m c 5 t : Vec Ideal S256x128 .f32) (ix2 r k) = w1Arr m c (ix2 r k) := by
  obtain ⟨-, -, -, -, -, ⟨h0, h1⟩, -⟩ := idx_facts t
  unfold iblk
  rw [View.read_apply]
  show V m c main_arg7 _ = V m c main_arg7 _
  congr 1
  funext a
  apply Fin.ext
  match a with
  | ⟨0, _⟩ => show win0_5.index t (0 : Fin 2) * 256 + 1 * r.val = r.val; rw [h0]; omega
  | ⟨1, _⟩ => show win0_5.index t (1 : Fin 2) * 128 + 1 * k.val = k.val; rw [h1]; omega

theorem b1_blk (c : Dev nD) (t : Fin cfg0.N) (k : Fin 128) :
    (iblk m c 6 t : Vec Ideal S1x128 .f32) (ix2 0 k) = b1Arr m c (ix2 0 k) := by
  obtain ⟨-, -, -, -, -, -, ⟨h0, h1⟩, -⟩ := idx_facts t
  unfold iblk
  rw [View.read_apply]
  show V m c main_v11 _ = V m c main_v11 _
  congr 1
  funext a
  apply Fin.ext
  match a with
  | ⟨0, _⟩ => show win0_6.index t (0 : Fin 2) * 1 + 1 * 0 = 0; rw [h0]
  | ⟨1, _⟩ => show win0_6.index t (1 : Fin 2) * 128 + 1 * k.val = k.val; rw [h1]; omega

theorem w2_blk (c : Dev nD) (t : Fin cfg0.N) (k : Fin 128) (j : Fin 64) :
    (iblk m c 7 t : Vec Ideal S128x64 .f32) (ix2 k j) = w2Arr m c (ix2 k j) := by
  obtain ⟨-, -, -, -, -, -, -, ⟨h0, h1⟩, -⟩ := idx_facts t
  unfold iblk
  rw [View.read_apply]
  show V m c main_arg9 _ = V m c main_arg9 _
  congr 1
  funext a
  apply Fin.ext
  match a with
  | ⟨0, _⟩ => show win0_7.index t (0 : Fin 2) * 128 + 1 * k.val = k.val; rw [h0]; omega
  | ⟨1, _⟩ => show win0_7.index t (1 : Fin 2) * 64 + 1 * j.val = j.val; rw [h1]; omega

theorem b2_blk (c : Dev nD) (t : Fin cfg0.N) (j : Fin 64) :
    (iblk m c 8 t : Vec Ideal S1x64 .f32) (ix2 0 j) = b2Arr m c (ix2 0 j) := by
  obtain ⟨-, -, -, -, -, -, -, -, ⟨h0, h1⟩, -⟩ := idx_facts t
  unfold iblk
  rw [View.read_apply]
  show V m c main_v12 _ = V m c main_v12 _
  congr 1
  funext a
  apply Fin.ext
  match a with
  | ⟨0, _⟩ => show win0_8.index t (0 : Fin 2) * 1 + 1 * 0 = 0; rw [h0]
  | ⟨1, _⟩ => show win0_8.index t (1 : Fin 2) * 64 + 1 * j.val = j.val; rw [h1]; omega

/-! ## The result array -/

/-- Entry (e, j) of the result: the edge update on edge e's rows of the arrays as the region finds them. -/
def Gat (c : Dev nD) (e : Fin 640000) (j : Fin 64) : EReal :=
  edgeOut (hiddenSplit (fun q => eaArr m c (ix2 e q)) (fun q => saArr m c (ix2 e q)) (fun q => raArr m c (ix2 e q))
      (fun q => gaArr m c (ix2 e q)) (fun r k => w1Arr m c (ix2 r k)) (fun k => b1Arr m c (ix2 0 k)))
    (mkArr m c (ix2 e 0)) (fun k c' => w2Arr m c (ix2 k c')) (fun c' => b2Arr m c (ix2 0 c')) j

/-- The whole result array. -/
def G (c : Dev nD) : Vec Ideal S640000x64 .f32 := fun i => Gat m c (i 0) (i 1)

/-- Entry (p, j) of the block the body stores at point t is entry (4000·t + p, j) of G. -/
theorem out_at (c : Dev nD) (t : Fin cfg0.N) (p : Fin 4000) (j : Fin 64) :
    (out0_9 (iblk m c 0 t) (iblk m c 1 t) (iblk m c 2 t) (iblk m c 3 t) (iblk m c 4 t) (iblk m c 5 t) (iblk m c 6 t) (iblk m c 7 t) (iblk m c 8 t) : Vec Ideal S4000x64 .f32) (ix2 p j)
      = Gat m c (edgeOf t p) j := by
  refine (out_apply (iblk m c 0 t) (iblk m c 1 t) (iblk m c 2 t) (iblk m c 3 t) (iblk m c 4 t) (iblk m c 5 t) (iblk m c 6 t) (iblk m c 7 t) (iblk m c 8 t) p j).trans ?_
  unfold Gat
  simp only [ea_blk, sa_blk, ra_blk, ga_blk, mk_blk, w1_blk, b1_blk, w2_blk, b2_blk]

/-- WHAT POINT t WRITES BACK is block t of G. -/
theorem flushed_eq (c : Dev nD) (t : Fin cfg0.N) :
    (dats m 0 c).flushed 9 t = ((cfg0.win 9).blk t).view.read (Elt Ideal) (G m c) := by
  rw [flushed9]
  funext y
  have h0 : (y 0).val < 4000 := (y 0).isLt
  have h1 : (y 1).val < 64 := (y 1).isLt
  obtain ⟨-, -, -, -, -, -, -, -, -, ⟨i0, i1⟩⟩ := idx_facts t
  have hx : (cfg0.win 9).xinj (grid0.coords t) y = ix2 (⟨(y 0).val, h0⟩ : Fin 4000) (⟨(y 1).val, h1⟩ : Fin 64) :=
    funext fun a => Fin.ext (by match a with | ⟨0, _⟩ => rfl | ⟨1, _⟩ => rfl)
  have he : (((cfg0.win 9).blk t).view.emb y : S640000x64.Idx) = ix2 (edgeOf t ⟨(y 0).val, h0⟩) (⟨(y 1).val, h1⟩ : Fin 64) :=
    funext fun a => Fin.ext (by
      match a with
      | ⟨0, _⟩ => show win0_9.index t (0 : Fin 2) * 4000 + 1 * (y 0).val = 4000 * t.val + (y 0).val; rw [i0]; omega
      | ⟨1, _⟩ => show win0_9.index t (1 : Fin 2) * 64 + 1 * (y 1).val = (y 1).val; rw [i1]; omega)
  show (out0_9 (iblk m c 0 t) (iblk m c 1 t) (iblk m c 2 t) (iblk m c 3 t) (iblk m c 4 t) (iblk m c 5 t) (iblk m c 6 t) (iblk m c 7 t) (iblk m c 8 t) : Vec Ideal S4000x64 .f32) ((cfg0.win 9).xinj (grid0.coords t) y)
    = G m c (((cfg0.win 9).blk t).view.emb y)
  rw [hx, he]
  exact out_at m c t _ _

/-- An index of the result array is in point t's block iff each coordinate is in the block's range on its axis. -/
theorem mem_blk9 (t : Fin cfg0.N) (i : S640000x64.Idx) :
    i ∈ ((cfg0.win 9).blk t).view.set ↔ ∀ a : Fin 2, win0_9.index t a * S4000x64.size a ≤ (i a).val ∧ (i a).val < win0_9.index t a * S4000x64.size a + S4000x64.size a := by
  show i ∈ ((View.whole main_v13).slice (win0_9.rect t)).set ↔ _
  rw [View.set_slice_whole, Rect.mem_set_unit]
  exact Iff.rfl

/-- THE BLOCKS TILE THE ARRAY: row r is in the block of point r / 4000. -/
theorem covered (i : S640000x64.Idx) : ∃ t : Fin cfg0.N, (cfg0.win 9).flush t = true ∧ i ∈ ((cfg0.win 9).blk t).view.set := by
  have hi0 : (i 0).val < 640000 := (i 0).isLt
  have hi1 : (i 1).val < 64 := (i 1).isLt
  have hN : cfg0.N = 160 := N_0
  have hlt : (i 0).val / 4000 < cfg0.N := by rw [hN]; omega
  obtain ⟨-, -, -, -, -, -, -, -, -, ⟨i0, i1⟩⟩ := idx_facts ⟨(i 0).val / 4000, hlt⟩
  refine ⟨⟨(i 0).val / 4000, hlt⟩, flush0_9 _, ?_⟩
  rw [mem_blk9]
  intro a
  match a with
  | ⟨0, _⟩ =>
    show win0_9.index ⟨(i 0).val / 4000, hlt⟩ (0 : Fin 2) * 4000 ≤ (i 0).val ∧ (i 0).val < win0_9.index ⟨(i 0).val / 4000, hlt⟩ (0 : Fin 2) * 4000 + 4000
    rw [i0]
    show (i 0).val / 4000 * 4000 ≤ (i 0).val ∧ (i 0).val < (i 0).val / 4000 * 4000 + 4000
    omega
  | ⟨1, _⟩ =>
    show win0_9.index ⟨(i 0).val / 4000, hlt⟩ (1 : Fin 2) * 64 ≤ (i 1).val ∧ (i 1).val < win0_9.index ⟨(i 0).val / 4000, hlt⟩ (1 : Fin 2) * 64 + 64
    rw [i1]
    omega

/-- THE RESULT ARRAY after the run is G. -/
theorem final (c : Dev nD) : (dats m 0 c).arrAt 9 cfg0.N = G m c :=
  (dats m 0 c).arrAt_eq_of_cover 9 (G m c) (fun t _ => flushed_eq m c t) covered

/-- The run, read: the result array at G, the arguments unchanged. -/
theorem run : θ_run defs (onTc (τ := τ) (main (F := Ideal))) ⟨m, fun _ => 0, ρ⟩ fun r => ∀ c : Dev nD,
      r.2.mem ((c : Thread nD τ).loc main_v13) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (run_blocks m ρ)

end Cert.KernelIdeal.ArrayValue

end
-- ==== Proof.RefValue.lean ====
/-
  The reference, read at an index. For edge e and output j the reference joins the edge's four feature rows into one
  row of 256, takes ONE product with W1, adds b1, rectifies, multiplies by W2, adds b2 and scales by the edge's mask
  weight. Feature p of the joined row is feature p - 64·n of row block n = p / 64 (the edge's attributes, its
  sender's, its receiver's, its graph's, in that order), so by the block form of a sum of 256 terms the first layer
  is the four partial products added left to right: the reference's entry (e, j) is the edge update of Spec.lean
  on the four gathered rows of edge e.
-/
import proofs.«425902_j16449724745525_2_alg».proof.Proof.Gen.ReferenceIdeal.Read
import proofs.«425902_j16449724745525_2_alg».proof.Proof.Spec
import Idealize.ShloMosaic.Lib.Pipeline.Value
import Idealize.ShloMosaic.Lib.ValueIdx
import Idealize.ShloMosaic.PureOps.Ideal.Laws

set_option maxRecDepth 16384

open scoped BigOperators

noncomputable section

namespace Cert.ReferenceIdeal.RefValue

open Cert.ReferenceIdeal Cert.ReferenceIdeal.Gen Cert.ReferenceIdeal.Read
open Idealize.ShloMosaic Idealize.ShloMosaic.ValueIdx Cert.EdgeMlp

variable (x0 : Vec Ideal S20000x64 .f32) (x1 : Vec Ideal S640000x64 .f32) (x2 : Vec Ideal S16x64 .f32) (x3 : Vec Ideal S20000 .f32)
  (x4 : Vec Ideal S640000 .f32) (x5 : IVec S2x640000 32) (x6 : IVec S640000 32) (x7 : Vec Ideal S256x128 .f32) (x8 : Vec Ideal S128 .f32)
  (x9 : Vec Ideal S128x64 .f32) (x10 : Vec Ideal S64 .f32)

/-! ## The printed index maps, as coordinates -/

theorem e_mask (e : Fin 640000) (j : Fin 64) : idx_main_v38 (idx_main_v39 (ix2 e j)) = ix1 e :=
  funext fun a => Fin.ext (by match a with | ⟨0, _⟩ => rfl)
theorem e_b2 (e : Fin 640000) (j : Fin 64) : idx_main_v35 (idx_main_v36 (ix2 e j)) = ix1 j :=
  funext fun a => Fin.ext (by match a with | ⟨0, _⟩ => rfl)
theorem e_l34 (e : Fin 640000) (j : Fin 64) (k : Fin 128) : lidx_main_v34 (ix2 e j) k = ix2 e k :=
  funext fun a => Fin.ext (by match a with | ⟨0, _⟩ => rfl | ⟨1, _⟩ => rfl)
theorem e_r34 (e : Fin 640000) (j : Fin 64) (k : Fin 128) : ridx_main_v34 (ix2 e j) k = ix2 k j :=
  funext fun a => Fin.ext (by match a with | ⟨0, _⟩ => rfl | ⟨1, _⟩ => rfl)
theorem e_b1 (e : Fin 640000) (k : Fin 128) : idx_main_v30 (idx_main_v31 (ix2 e k)) = ix1 k :=
  funext fun a => Fin.ext (by match a with | ⟨0, _⟩ => rfl)
theorem e_l29 (e : Fin 640000) (k : Fin 128) (p : Fin 256) : lidx_main_v29 (ix2 e k) p = ix2 e p :=
  funext fun a => Fin.ext (by match a with | ⟨0, _⟩ => rfl | ⟨1, _⟩ => rfl)
theorem e_r29 (e : Fin 640000) (k : Fin 128) (p : Fin 256) : ridx_main_v29 (ix2 e k) p = ix2 p k :=
  funext fun a => Fin.ext (by match a with | ⟨0, _⟩ => rfl | ⟨1, _⟩ => rfl)

/-- Entry (e, j) of the reference's result, with the first layer as one sum over the joined row. -/
theorem result_joined (e : Fin 640000) (j : Fin 64) :
    val_main_v40 (F := Ideal) x0 x1 x2 x3 x4 x5 x6 x7 x8 x9 x10 (ix2 e j)
      = edgeOut (hiddenJoined (fun p => val_main_v28 (F := Ideal) x0 x1 x2 x3 x5 x6 (ix2 e p)) (fun r k => x7 (ix2 r k)) (fun k => x8 (ix1 k)))
          (x4 (ix1 e)) (fun k c => x9 (ix2 k c)) (fun c => x10 (ix1 c)) j := by
  rw [val_main_v40_apply, val_main_v39_apply, val_main_v38_apply, val_main_v37_apply, val_main_v34_apply, val_main_v36_apply, val_main_v35_apply]
  simp only [val_main_v33_apply, val_main_v32_apply, val_main_v29_apply, val_main_v31_apply, val_main_v30_apply, val_main_call0_v0_apply, val_main_call0_cst_apply]
  rw [e_mask, e_b2]
  rw [show (FloatOps.ofBits FTy.f32 0#32 : Ideal .f32) = 0 from Ideal.ofBits_zero_f32]
  unfold edgeOut hiddenJoined
  refine congrArg₂ (· * ·) rfl (congrArg₂ (· + ·) (Finset.sum_congr rfl fun k _ => ?_) rfl)
  rw [e_l34, e_r34]
  refine congrArg₂ (· * ·) (congrArg₂ max (congrArg₂ (· + ·) (Finset.sum_congr rfl fun p _ => ?_) ?_) rfl) rfl
  · rw [e_l29, e_r29]
  · rw [e_b1]

/-! ## The joined row, block by block -/

/-- The four pieces the reference joins along the feature axis, in order. -/
abbrev pieces : List ((s : Shape) × (s.Idx → Ideal .f32)) :=
  [⟨S640000x64, x1⟩, ⟨S640000x64, val_main_v13 (F := Ideal) x0 x3 x5⟩, ⟨S640000x64, val_main_v20 (F := Ideal) x0 x3 x5⟩,
    ⟨S640000x64, val_main_v27 (F := Ideal) x2 x6⟩]

theorem cat_A (e : Fin 640000) (q : Fin 64) :
    val_main_v28 (F := Ideal) x0 x1 x2 x3 x5 x6 (ix2 e (rowA q)) = x1 (ix2 e q) := by
  unfold val_main_v28
  exact concatenate_apply_piece (1 : Fin S640000x256.rank) (pieces x0 x1 x2 x3 x5 x6) concatenates_S640000x64_S640000x64_S640000x64_S640000x64_S640000x256_d1
    (ix2 e (rowA q)) 0 (by show 0 < 4; omega) S640000x64 x1 rfl rfl 0 rfl (ix2 e q)
    (fun b hb => by match b with | ⟨0, _⟩ => rfl | ⟨1, _⟩ => exact absurd rfl hb) (by show 0 + q.val = q.val; omega)

theorem cat_B (e : Fin 640000) (q : Fin 64) :
    val_main_v28 (F := Ideal) x0 x1 x2 x3 x5 x6 (ix2 e (rowB q)) = val_main_v13 (F := Ideal) x0 x3 x5 (ix2 e q) := by
  unfold val_main_v28
  exact concatenate_apply_piece (1 : Fin S640000x256.rank) (pieces x0 x1 x2 x3 x5 x6) concatenates_S640000x64_S640000x64_S640000x64_S640000x64_S640000x256_d1
    (ix2 e (rowB q)) 1 (by show 1 < 4; omega) S640000x64 (val_main_v13 (F := Ideal) x0 x3 x5) rfl rfl 64 rfl (ix2 e q)
    (fun b hb => by match b with | ⟨0, _⟩ => rfl | ⟨1, _⟩ => exact absurd rfl hb) rfl

theorem cat_C (e : Fin 640000) (q : Fin 64) :
    val_main_v28 (F := Ideal) x0 x1 x2 x3 x5 x6 (ix2 e (rowC q)) = val_main_v20 (F := Ideal) x0 x3 x5 (ix2 e q) := by
  unfold val_main_v28
  exact concatenate_apply_piece (1 : Fin S640000x256.rank) (pieces x0 x1 x2 x3 x5 x6) concatenates_S640000x64_S640000x64_S640000x64_S640000x64_S640000x256_d1
    (ix2 e (rowC q)) 2 (by show 2 < 4; omega) S640000x64 (val_main_v20 (F := Ideal) x0 x3 x5) rfl rfl 128 rfl (ix2 e q)
    (fun b hb => by match b with | ⟨0, _⟩ => rfl | ⟨1, _⟩ => exact absurd rfl hb) rfl

theorem cat_D (e : Fin 640000) (q : Fin 64) :
    val_main_v28 (F := Ideal) x0 x1 x2 x3 x5 x6 (ix2 e (rowD q)) = val_main_v27 (F := Ideal) x2 x6 (ix2 e q) := by
  unfold val_main_v28
  exact concatenate_apply_piece (1 : Fin S640000x256.rank) (pieces x0 x1 x2 x3 x5 x6) concatenates_S640000x64_S640000x64_S640000x64_S640000x64_S640000x256_d1
    (ix2 e (rowD q)) 3 (by show 3 < 4; omega) S640000x64 (val_main_v27 (F := Ideal) x2 x6) rfl rfl 192 rfl (ix2 e q)
    (fun b hb => by match b with | ⟨0, _⟩ => rfl | ⟨1, _⟩ => exact absurd rfl hb) rfl

/-- ENTRY (e, j) OF THE REFERENCE'S RESULT: the edge update on the edge's own row and its three gathered rows. -/
theorem result_apply (e : Fin 640000) (j : Fin 64) :
    val_main_v40 (F := Ideal) x0 x1 x2 x3 x4 x5 x6 x7 x8 x9 x10 (ix2 e j)
      = edgeOut (hiddenSplit (fun q => x1 (ix2 e q)) (fun q => val_main_v13 (F := Ideal) x0 x3 x5 (ix2 e q))
            (fun q => val_main_v20 (F := Ideal) x0 x3 x5 (ix2 e q)) (fun q => val_main_v27 (F := Ideal) x2 x6 (ix2 e q))
            (fun r k => x7 (ix2 r k)) (fun k => x8 (ix1 k)))
          (x4 (ix1 e)) (fun k c => x9 (ix2 k c)) (fun c => x10 (ix1 c)) j := by
  rw [result_joined]
  have h : hiddenJoined (fun p => val_main_v28 (F := Ideal) x0 x1 x2 x3 x5 x6 (ix2 e p)) (fun r k => x7 (ix2 r k)) (fun k => x8 (ix1 k))
      = hiddenSplit (fun q => x1 (ix2 e q)) (fun q => val_main_v13 (F := Ideal) x0 x3 x5 (ix2 e q))
          (fun q => val_main_v20 (F := Ideal) x0 x3 x5 (ix2 e q)) (fun q => val_main_v27 (F := Ideal) x2 x6 (ix2 e q))
          (fun r k => x7 (ix2 r k)) (fun k => x8 (ix1 k)) :=
    funext fun k => hiddenJoined_eq_split _ _ _ _ _ (fun q => cat_A x0 x1 x2 x3 x5 x6 e q) (fun q => cat_B x0 x1 x2 x3 x5 x6 e q)
      (fun q => cat_C x0 x1 x2 x3 x5 x6 e q) (fun q => cat_D x0 x1 x2 x3 x5 x6 e q) _ _ k
  rw [h]

end Cert.ReferenceIdeal.RefValue

end
-- ==== Proof.HostSide.lean ====
/-
  THE HOST SIDE OF THE KERNEL'S @main, READ AT THE REGION'S ENTRY. Before its one region the program computes, as plain
  array operations: the node table scaled row by row by the node mask; three row lookups `take(table, idx)` — senders and
  receivers out of the scaled node table by the two rows of `edge_index`, and the per-graph table by `eg_index` —; and
  three reshapes of vectors into columns or rows. A lookup of this kind first raises each negative index by the table's
  length N, gathers the rows (the gather clamps its start index into the table), and then REPLACES by a not-a-number
  constant every row whose raised index lies outside [0, N - 1]. The precondition says every `edge_index` word is in
  [0, 20000) and every `eg_index` word in [0, 16), signed. A word w with 0 ≤ w < N is not negative, so raising leaves it,
  and 0 ≤ w ≤ N - 1: every row's in-range test is true, nothing is replaced, and each lookup IS the plain gather at the
  raised indices. Stated here as what each of the six computed buffers holds when the region is entered.
-/
import proofs.«425902_j16449724745525_2_alg».proof.Defs
import proofs.«425902_j16449724745525_2_alg».proof.Proof.Gen.KernelIdeal.Frame
import proofs.«425902_j16449724745525_2_alg».proof.Proof.Gen.Pre_finite_inputs
import Idealize.ShloMosaic.Lib.StableHlo.Run
import Idealize.ShloMosaic.Lib.StableHlo.Predicate
import Idealize.ShloMosaic.Lib.ReduceAll

set_option maxRecDepth 16384

noncomputable section

namespace Cert.KernelIdeal.HostSide

open Cert.KernelIdeal Cert.KernelIdeal.Gen Idealize.ShloMosaic Idealize.ShloMosaic.TcCoe Idealize.SL.Sem

variable (m : (l : Loc nD τ sig) → Buf (Elt Ideal) l)

/-! ## The names of the statement -/

/-- `node_attr * node_mask[:, None]`: the node table with each row scaled by its mask word. -/
abbrev masked (c : Dev nD) : FVec Ideal S20000x64 .f32 :=
  mulf (m ((c : Thread nD τ).loc main_arg0))
    (broadcastInDim S20000x64 ![0, 1] bcast_S20000x1_S20000x64_0_1
      (broadcastInDim S20000x1 ![0] bcast_S20000_S20000x1_0 (m ((c : Thread nD τ).loc main_arg3))))

/-- `edge_index[0]`: the senders' row of the [2, 640000] index table, as a vector. -/
abbrev row0 (c : Dev nD) : IVec S640000 32 :=
  shapeCast S640000 (extractStridedSlice S1x640000 ![0, 0] (m ((c : Thread nD τ).loc main_arg5)) slices_S2x640000_S1x640000_0_0)
    shapeCasts_S1x640000_S640000

/-- `edge_index[1]`: the receivers' row. -/
abbrev row1 (c : Dev nD) : IVec S640000 32 :=
  shapeCast S640000 (extractStridedSlice S1x640000 ![1, 0] (m ((c : Thread nD τ).loc main_arg5)) slices_S2x640000_S1x640000_1_0)
    shapeCasts_S1x640000_S640000

/-- An index vector with each negative word raised by the table's length `N`, as the [640000 × 1] column of start
    indices a gather takes. -/
abbrev wrapped (N : BitVec 32) (idx : IVec S640000 32) : IVec S640000x1 32 :=
  broadcastInDim S640000x1 ![0] bcast_S640000_S640000x1_0
    (select (cmpi .slt idx (broadcastInDim S640000 ![] bcast_S_S640000 (constantI S_ 32 0#32)))
      (addi idx (broadcastInDim S640000 ![] bcast_S_S640000 (constantI S_ 32 N))) idx)

/-! ## Words and reductions -/

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    have e : IntOp.andi (1#1) (f a) = 1#1 := by rw [hf a]; decide
    rw [List.foldl_cons, e]
    exact foldl_andi_one f hf l

/-- A reduction by `and`, started at 1, of an array of ones is 1 at every result index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_one x hx _

/-- A word that is at least 0 and below `n`, both signed, with `n` below 2³¹, has a value below `n`. -/
theorem toNat_lt_of_signed (w : BitVec 32) (n : Nat) (hn : n < 2 ^ 31) (h0 : IntOp.cmpi .sge w 0#32 = 1#1)
    (h1 : IntOp.cmpi .slt w (BitVec.ofNat 32 n) = 1#1) : w.toNat < n := by
  rw [IntOp.cmpi_sge] at h0
  rw [IntOp.cmpi_slt, StableHlo.Predicate.toInt_ofNat_small n hn] at h1
  have hz : (0#32 : BitVec 32).toInt = 0 := by decide
  rw [hz] at h0
  have h32 := w.isLt
  rw [BitVec.toInt_eq_toNat_cond] at h0 h1
  split_ifs at h0 h1 <;> omega

/-- THE PER-WORD FACT. A word `w` with 0 ≤ w < n signed (n below 2³¹) is not negative, so the wrap of a negative index
    (add `N` when below 0) leaves it; and the wrapped word is at least 0 and at most `hi = n - 1`: the in-range bit is 1. -/
theorem word_inrange (w N hi : BitVec 32) (n : Nat) (hn : n < 2 ^ 31) (hhi : hi.toNat + 1 = n)
    (h0 : IntOp.cmpi .sge w 0#32 = 1#1) (h1 : IntOp.cmpi .slt w (BitVec.ofNat 32 n) = 1#1) :
    IntOp.andi (IntOp.cmpi .sge (Scalar.select (IntOp.cmpi .slt w 0#32) (IntOp.addi w N) w) 0#32)
      (IntOp.cmpi .sle (Scalar.select (IntOp.cmpi .slt w 0#32) (IntOp.addi w N) w) hi) = 1#1 := by
  have hw : w.toNat < n := toNat_lt_of_signed w n hn h0 h1
  have hneg : ¬ IntOp.cmpi .slt w 0#32 = 1#1 := by
    rw [StableHlo.Predicate.slt_iff_toNat (by omega) (by decide)]
    exact Nat.not_lt_zero _
  have hsel : Scalar.select (IntOp.cmpi .slt w 0#32) (IntOp.addi w N) w = w := by
    unfold Scalar.select
    exact if_neg hneg
  rw [hsel, IntOp.andi_eq_one]
  refine ⟨h0, ?_⟩
  rw [StableHlo.Predicate.sle_iff_toNat (by omega) (by omega)]
  omega

/-! ## The precondition's two index-range conjuncts, decoded -/

/-- The one index of a rank-0 array. -/
abbrev i0 : Cert.Pre_finite_inputs.S_.Idx := fun a => a.elim0

theorem S0_idx (j : Cert.Pre_finite_inputs.S_.Idx) : j = i0 := funext fun a => a.elim0

/-- The precondition's last conjunct: every `eg_index` word is at least 0 and below 16, signed (and what is conjoined
    before it holds too). -/
theorem pre_part3 (a6 : IVec Cert.Pre_finite_inputs.S640000 32) (v50 : IVec Cert.Pre_finite_inputs.S_ 1)
    (e : Cert.Pre_finite_inputs.fn_part3 (F := Ideal) a6 v50 = fun _ => 1#1) :
    v50 = (fun _ => 1#1) ∧ ∀ i, IntOp.cmpi .sge (a6 i) 0#32 = 1#1 ∧ IntOp.cmpi .slt (a6 i) 16#32 = 1#1 := by
  have e0 := congrFun e i0
  unfold Cert.Pre_finite_inputs.fn_part3 at e0
  obtain ⟨h50, hr⟩ := IntOp.andi_eq_one.1 e0
  refine ⟨funext fun j => by rw [S0_idx j]; exact h50, fun i => ?_⟩
  have hx := Host.reduce_andi_eq_one _ _ _ _ i0 hr i (S0_idx _)
  simp only [andi, cmpi, broadcastInDim, constantI] at hx
  exact IntOp.andi_eq_one.1 hx

/-- The conjunct before it: every `edge_index` word is at least 0 and below 20000, signed. -/
theorem pre_part2 (a5 : IVec Cert.Pre_finite_inputs.S2x640000 32) (a6 : IVec Cert.Pre_finite_inputs.S640000 32)
    (a9 : FVec Ideal Cert.Pre_finite_inputs.S128x64 .f32) (a10 : FVec Ideal Cert.Pre_finite_inputs.S64 .f32)
    (v33 : IVec Cert.Pre_finite_inputs.S_ 1)
    (e : Cert.Pre_finite_inputs.fn_part2 (F := Ideal) a5 a6 a9 a10 v33 = fun _ => 1#1) :
    (∀ i, IntOp.cmpi .sge (a5 i) 0#32 = 1#1 ∧ IntOp.cmpi .slt (a5 i) 20000#32 = 1#1)
      ∧ ∀ i, IntOp.cmpi .sge (a6 i) 0#32 = 1#1 ∧ IntOp.cmpi .slt (a6 i) 16#32 = 1#1 := by
  unfold Cert.Pre_finite_inputs.fn_part2 at e
  obtain ⟨h50, h6⟩ := pre_part3 _ _ e
  refine ⟨fun i => ?_, h6⟩
  have e0 := congrFun h50 i0
  obtain ⟨-, hr⟩ := IntOp.andi_eq_one.1 e0
  have hx := Host.reduce_andi_eq_one _ _ _ _ i0 hr i (S0_idx _)
  simp only [andi, cmpi, broadcastInDim, constantI] at hx
  exact IntOp.andi_eq_one.1 hx

/-! ## A lookup under the range condition is the gather -/

/-- A select whose mask is a column of ones laid along the rows is its first branch. -/
theorem select_ones (r : IVec S640000 1) (hr : ∀ j, r j = 1#1) (g nan : FVec Ideal S640000x64 .f32) :
    select (broadcastInDim S640000x64 ![0] bcast_S640000_S640000x64_0 r) g nan = g := by
  funext i
  show Scalar.select (r _) (g i) (nan i) = g i
  rw [hr]
  exact if_pos rfl

/-- With every index word in [0, n) signed, each row's in-range test (the wrapped index at least 0 and at most
    `hi = n - 1`, reduced by `and` along the column's one-element axis) is 1. -/
theorem inrange_ones (N hi : BitVec 32) (n : Nat) (hn : n < 2 ^ 31) (hhi : hi.toNat + 1 = n) (idx : IVec S640000 32)
    (hidx : ∀ j, IntOp.cmpi .sge (idx j) 0#32 = 1#1 ∧ IntOp.cmpi .slt (idx j) (BitVec.ofNat 32 n) = 1#1) (j : S640000.Idx) :
    Host.reduce IntOp.andi
        (andi (cmpi .sge (wrapped N idx) (broadcastInDim S640000x1 ![] bcast_S_S640000x1 (constantI S_ 32 0#32)))
          (cmpi .sle (wrapped N idx)
            (broadcastInDim S640000x1 ![0, 1] bcast_S1x1_S640000x1_0_1
              (broadcastInDim S1x1 ![1] bcast_S1_S1x1_1 (constantI S1 32 hi)))))
        (constantI S_ 1 1#1) reducesTo_S640000x1_S640000_d1 h_S_ j = 1#1 := by
  refine reduce_andi_of_all _ _ _ _ rfl (fun p => ?_) j
  simp only [wrapped, andi, cmpi, addi, select, broadcastInDim, constantI]
  exact word_inrange _ N hi n hn hhi (hidx _).1 (hidx _).2

/-- THE TAKE IS THE GATHER: the replacement of out-of-range rows by `nan` replaces nothing. -/
theorem select_inrange (N hi : BitVec 32) (n : Nat) (hn : n < 2 ^ 31) (hhi : hi.toNat + 1 = n) (idx : IVec S640000 32)
    (hidx : ∀ j, IntOp.cmpi .sge (idx j) 0#32 = 1#1 ∧ IntOp.cmpi .slt (idx j) (BitVec.ofNat 32 n) = 1#1)
    (g nan : FVec Ideal S640000x64 .f32) :
    select (broadcastInDim S640000x64 ![0] bcast_S640000_S640000x64_0
        (Host.reduce IntOp.andi
          (andi (cmpi .sge (wrapped N idx) (broadcastInDim S640000x1 ![] bcast_S_S640000x1 (constantI S_ 32 0#32)))
            (cmpi .sle (wrapped N idx)
              (broadcastInDim S640000x1 ![0, 1] bcast_S1x1_S640000x1_0_1
                (broadcastInDim S1x1 ![1] bcast_S1_S1x1_1 (constantI S1 32 hi)))))
          (constantI S_ 1 1#1) reducesTo_S640000x1_S640000_d1 h_S_)) g nan = g :=
  select_ones _ (inrange_ones N hi n hn hhi idx hidx) g nan

/-- Every word of either row of `edge_index` is a word of the [2, 640000] table, so in [0, 20000) under the precondition. -/
theorem row0_range (h : Cert.Pre_KernelIdeal m) (c : Dev nD) (j : S640000.Idx) :
    IntOp.cmpi .sge (row0 m c j) 0#32 = 1#1 ∧ IntOp.cmpi .slt (row0 m c j) (BitVec.ofNat 32 20000) = 1#1 := by
  have hp := (pre_part2 _ _ _ _ _ (h c)).1
  unfold row0 shapeCast extractStridedSlice
  exact hp _

theorem row1_range (h : Cert.Pre_KernelIdeal m) (c : Dev nD) (j : S640000.Idx) :
    IntOp.cmpi .sge (row1 m c j) 0#32 = 1#1 ∧ IntOp.cmpi .slt (row1 m c j) (BitVec.ofNat 32 20000) = 1#1 := by
  have hp := (pre_part2 _ _ _ _ _ (h c)).1
  unfold row1 shapeCast extractStridedSlice
  exact hp _

theorem eg_range (h : Cert.Pre_KernelIdeal m) (c : Dev nD) (j : S640000.Idx) :
    IntOp.cmpi .sge (m ((c : Thread nD τ).loc main_arg6) j) 0#32 = 1#1
      ∧ IntOp.cmpi .slt (m ((c : Thread nD τ).loc main_arg6) j) (BitVec.ofNat 32 16) = 1#1 :=
  (pre_part2 _ _ _ _ _ (h c)).2 j

/-! ## A value's type and its buffer's type -/

/-- Contents carried to a buffer's own type and back are the contents. -/
theorem ofBuf_toBuf {T : BufTy} (x : StableHlo.TRef sig T) (v : T.Contents (Elt Ideal)) : x.ofBuf (x.toBuf v) = v := by
  obtain ⟨r, h, h1, h2⟩ := x
  subst h
  rfl

/-- Contents carried to a buffer's own type are what the buffer holds when they are what it holds, carried back. -/
theorem toBuf_eq_of {T : BufTy} (x : StableHlo.TRef sig T) (v : T.Contents (Elt Ideal)) (w : x.ref.ty.Contents (Elt Ideal))
    (e : v = x.ofBuf w) : x.toBuf v = w := by
  obtain ⟨r, h, h1, h2⟩ := x
  subst h
  exact e

/-! ## What the computed buffers hold at the region's entry

Each is read off the line of host operations: the operations' results composed, the transports between a value's type and
its buffer's type cancelling in pairs; for a lookup the range condition then removes the replacement, and what is left is
the stated gather, the same term up to the transports at the tables and the index vectors. -/

/-- The senders' rows: the gather of the scaled node table at `edge_index[0]`. -/
theorem V_main_v7 (h : Cert.Pre_KernelIdeal m) (c : Dev nD) :
    V m c main_v7 = Host.gather gather_S20000x64_S640000x1_S640000x64_1_0_n_n_0_1_164 (masked m c) (wrapped 20000#32 (row0 m c)) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  simp only [ofBuf_toBuf]
  refine toBuf_eq_of _ _ _ ?_
  refine (select_inrange 20000#32 19999#32 20000 (by decide) (by decide) _ ?_ _ _).trans ?_
  · exact row0_range m h c
  · rfl

/-- The receivers' rows: the gather of the scaled node table at `edge_index[1]`. -/
theorem V_main_v8 (h : Cert.Pre_KernelIdeal m) (c : Dev nD) :
    V m c main_v8 = Host.gather gather_S20000x64_S640000x1_S640000x64_1_0_n_n_0_1_164 (masked m c) (wrapped 20000#32 (row1 m c)) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  simp only [ofBuf_toBuf]
  refine toBuf_eq_of _ _ _ ?_
  refine (select_inrange 20000#32 19999#32 20000 (by decide) (by decide) _ ?_ _ _).trans ?_
  · exact row1_range m h c
  · rfl

/-- The per-graph rows: the gather of the [16, 64] table at `eg_index`. -/
theorem V_main_v9 (h : Cert.Pre_KernelIdeal m) (c : Dev nD) :
    V m c main_v9 = Host.gather gather_S16x64_S640000x1_S640000x64_1_0_n_n_0_1_164 (m ((c : Thread nD τ).loc main_arg2))
      (wrapped 16#32 (m ((c : Thread nD τ).loc main_arg6))) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  simp only [ofBuf_toBuf]
  refine toBuf_eq_of _ _ _ ?_
  refine (select_inrange 16#32 15#32 16 (by decide) (by decide) _ ?_ _ _).trans ?_
  · exact eg_range m h c
  · rfl

/-- The edge mask as a column. -/
theorem V_main_v10 (c : Dev nD) :
    V m c main_v10 = broadcastInDim S640000x1 ![0] bcast_S640000_S640000x1_0 (m ((c : Thread nD τ).loc main_arg4)) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  <;> rfl

/-- The first bias as a row. -/
theorem V_main_v11 (c : Dev nD) :
    V m c main_v11 = broadcastInDim S1x128 ![1] bcast_S128_S1x128_1 (m ((c : Thread nD τ).loc main_arg8)) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  <;> rfl

/-- The second bias as a row. -/
theorem V_main_v12 (c : Dev nD) :
    V m c main_v12 = broadcastInDim S1x64 ![1] bcast_S64_S1x64_1 (m ((c : Thread nD τ).loc main_arg10)) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  <;> rfl

end Cert.KernelIdeal.HostSide

end
-- ==== Proof.Bridge.lean ====
/-
  The two results are one array. Both programs end with, at entry (e, j), the edge update of Spec.lean applied to four
  feature rows of edge e, the edge's mask weight and the parameters. The rows are the same on both sides: the edge's
  own attributes are an argument; the sender's, receiver's and graph's rows are, in the reference, the gathers at the
  wrapped indices, and in the kernel what its three lookups leave, which under the index-range precondition are those
  same gathers; the mask column and the two bias rows the kernel stages are the reference's vectors read at the
  matching coordinate. So the two arrays agree entry by entry.
-/
import proofs.«425902_j16449724745525_2_alg».proof.Proof.KernelArray
import proofs.«425902_j16449724745525_2_alg».proof.Proof.RefValue
import proofs.«425902_j16449724745525_2_alg».proof.Proof.HostSide

set_option maxRecDepth 16384

open scoped BigOperators

noncomputable section

namespace Cert.Proof.Bridge

open Idealize.ShloMosaic Idealize.ShloMosaic.TcCoe Idealize.SL.Sem Idealize.ShloMosaic.ValueIdx Cert.EdgeMlp
open Cert.KernelIdeal Cert.KernelIdeal.Gen Cert.KernelIdeal.ArrayValue

/-- The edge update at (e, j) from the nine arrays it reads, the mask and the biases given by coordinate. -/
def fromArrays (ea sa ra ga : (⟨2, ![640000, 64]⟩ : Shape).Idx → EReal) (mk : Fin 640000 → EReal)
    (w1 : (⟨2, ![256, 128]⟩ : Shape).Idx → EReal) (b1 : Fin 128 → EReal) (w2 : (⟨2, ![128, 64]⟩ : Shape).Idx → EReal)
    (b2 : Fin 64 → EReal) (e : Fin 640000) (j : Fin 64) : EReal :=
  edgeOut (hiddenSplit (fun q => ea (ix2 e q)) (fun q => sa (ix2 e q)) (fun q => ra (ix2 e q)) (fun q => ga (ix2 e q))
    (fun r k => w1 (ix2 r k)) b1) (mk e) (fun k c => w2 (ix2 k c)) b2 j

theorem fromArrays_congr {ea ea' sa sa' ra ra' ga ga' : (⟨2, ![640000, 64]⟩ : Shape).Idx → EReal} {mk mk' : Fin 640000 → EReal}
    {w1 w1' : (⟨2, ![256, 128]⟩ : Shape).Idx → EReal} {b1 b1' : Fin 128 → EReal} {w2 w2' : (⟨2, ![128, 64]⟩ : Shape).Idx → EReal}
    {b2 b2' : Fin 64 → EReal} (h1 : ea = ea') (h2 : sa = sa') (h3 : ra = ra') (h4 : ga = ga') (h5 : mk = mk') (h6 : w1 = w1')
    (h7 : b1 = b1') (h8 : w2 = w2') (h9 : b2 = b2') (e : Fin 640000) (j : Fin 64) :
    fromArrays ea sa ra ga mk w1 b1 w2 b2 e j = fromArrays ea' sa' ra' ga' mk' w1' b1' w2' b2' e j := by
  subst h1 h2 h3 h4 h5 h6 h7 h8 h9; rfl

variable (m : (ℓ : Loc nD τ sig) → Buf (Elt Ideal) ℓ)

/-! ## The kernel's nine arrays, from the arguments -/

theorem sa_eq (h : Cert.Pre_KernelIdeal m) (c : Dev nD) :
    Cert.ReferenceIdeal.Read.val_main_v13 (F := Ideal) (m ((c : Thread nD τ).loc main_arg0)) (m ((c : Thread nD τ).loc main_arg3)) (m ((c : Thread nD τ).loc main_arg5))
      = saArr m c := by
  rw [show saArr m c = _ from Cert.KernelIdeal.HostSide.V_main_v7 m h c]
  rfl

theorem ra_eq (h : Cert.Pre_KernelIdeal m) (c : Dev nD) :
    Cert.ReferenceIdeal.Read.val_main_v20 (F := Ideal) (m ((c : Thread nD τ).loc main_arg0)) (m ((c : Thread nD τ).loc main_arg3)) (m ((c : Thread nD τ).loc main_arg5))
      = raArr m c := by
  rw [show raArr m c = _ from Cert.KernelIdeal.HostSide.V_main_v8 m h c]
  rfl

theorem ga_eq (h : Cert.Pre_KernelIdeal m) (c : Dev nD) :
    Cert.ReferenceIdeal.Read.val_main_v27 (F := Ideal) (m ((c : Thread nD τ).loc main_arg2)) (m ((c : Thread nD τ).loc main_arg6))
      = gaArr m c := by
  rw [show gaArr m c = _ from Cert.KernelIdeal.HostSide.V_main_v9 m h c]
  rfl

theorem mk_eq (c : Dev nD) (e : Fin 640000) :
    (m ((c : Thread nD τ).loc main_arg4) : Vec Ideal S640000 .f32) (ix1 e) = mkArr m c (ix2 e 0) := by
  rw [show mkArr m c = _ from Cert.KernelIdeal.HostSide.V_main_v10 m c]
  exact (broadcastInDim_apply _ bcast_S640000_S640000x1_0 (m ((c : Thread nD τ).loc main_arg4)) (ix2 e 0) (ix1 e) (fun a => match a with
    | ⟨0, _⟩ => by show e.val = if (640000 : Nat) = 1 then 0 else e.val; rw [if_neg (by decide)])).symm

theorem b1_eq (c : Dev nD) (k : Fin 128) :
    (m ((c : Thread nD τ).loc main_arg8) : Vec Ideal S128 .f32) (ix1 k) = b1Arr m c (ix2 0 k) := by
  rw [show b1Arr m c = _ from Cert.KernelIdeal.HostSide.V_main_v11 m c]
  exact (broadcastInDim_apply _ bcast_S128_S1x128_1 (m ((c : Thread nD τ).loc main_arg8)) (ix2 0 k) (ix1 k) (fun a => match a with
    | ⟨0, _⟩ => by show k.val = if (128 : Nat) = 1 then 0 else k.val; rw [if_neg (by decide)])).symm

theorem b2_eq (c : Dev nD) (j : Fin 64) :
    (m ((c : Thread nD τ).loc main_arg10) : Vec Ideal S64 .f32) (ix1 j) = b2Arr m c (ix2 0 j) := by
  rw [show b2Arr m c = _ from Cert.KernelIdeal.HostSide.V_main_v12 m c]
  exact (broadcastInDim_apply _ bcast_S64_S1x64_1 (m ((c : Thread nD τ).loc main_arg10)) (ix2 0 j) (ix1 j) (fun a => match a with
    | ⟨0, _⟩ => by show j.val = if (64 : Nat) = 1 then 0 else j.val; rw [if_neg (by decide)])).symm

/-- THE REFERENCE'S RESULT, read off the kernel's own arguments, IS THE KERNEL'S RESULT ARRAY. -/
theorem result_eq (h : Cert.Pre_KernelIdeal m) (c : Dev nD) :
    Cert.ReferenceIdeal.Read.val_main_v40 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
      = G m c := by
  funext i
  obtain ⟨e, j, rfl⟩ : ∃ (e : Fin 640000) (j : Fin 64), i = ix2 e j := ⟨i 0, i 1, eq_ix2 i⟩
  rw [Cert.ReferenceIdeal.RefValue.result_apply]
  exact fromArrays_congr (V_main_arg1 m c).symm (sa_eq m h c) (ra_eq m h c) (ga_eq m h c) (funext fun e' => mk_eq m c e')
    (V_main_arg7 m c).symm (funext fun k => b1_eq m c k) (V_main_arg9 m c).symm (funext fun j' => b2_eq m c j') e j

end Cert.Proof.Bridge

end
-- ==== Proof.lean ====
/-
  The certificate. The kernel computes, for each of 640000 edges, a two-layer perceptron on the edge's attributes and
  the gathered attributes of its sender, receiver and graph, scaled by the edge's mask weight; the reference computes
  the same on the four rows joined into one. The three frames: the two kernel programs by their generated frames, the
  reference by its generated run with the result dropped. Nothing was rewritten in idealizing the kernel, so the
  preservation claim is trivial. The value claim: the kernel's result array is the edge update applied edge by edge
  to the arrays the region finds (KernelArray.lean over KernelRow.lean), the reference's result is the same update
  on the gathered rows (RefValue.lean, by the block form of the first layer's sum), and under the precondition's
  index ranges the arrays the region finds are the reference's gathers and vectors (HostSide.lean, Bridge.lean).
-/
import proofs.«425902_j16449724745525_2_alg».proof.Defs
import proofs.«425902_j16449724745525_2_alg».proof.Proof.Gen.Kernel
import proofs.«425902_j16449724745525_2_alg».proof.Proof.Gen.Kernel.Skeleton
import proofs.«425902_j16449724745525_2_alg».proof.Proof.Gen.Kernel.Launch
import proofs.«425902_j16449724745525_2_alg».proof.Proof.Gen.Kernel.Points
import proofs.«425902_j16449724745525_2_alg».proof.Proof.Gen.Kernel.Frame
import proofs.«425902_j16449724745525_2_alg».proof.Proof.Gen.KernelIdeal
import proofs.«425902_j16449724745525_2_alg».proof.Proof.Gen.KernelIdeal.Skeleton
import proofs.«425902_j16449724745525_2_alg».proof.Proof.Gen.KernelIdeal.Launch
import proofs.«425902_j16449724745525_2_alg».proof.Proof.Gen.KernelIdeal.Points
import proofs.«425902_j16449724745525_2_alg».proof.Proof.Gen.KernelIdeal.Frame
import proofs.«425902_j16449724745525_2_alg».proof.Proof.Gen.ReferenceIdeal
import proofs.«425902_j16449724745525_2_alg».proof.Proof.Gen.Pre_finite_inputs
import proofs.«425902_j16449724745525_2_alg».proof.Proof.Gen.KernelIdeal.Value
import proofs.«425902_j16449724745525_2_alg».proof.Proof.Gen.ReferenceIdeal.Run
import proofs.«425902_j16449724745525_2_alg».proof.Proof.Gen.ReferenceIdeal.Read
import proofs.«425902_j16449724745525_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the edge update of the kernel's arguments: the kernel's by its blocks,
    the reference's by its run read at an index, the agreeing memories rewritten and the two read as one array. -/
theorem algebraic : Cert.algebraic_KernelIdeal_ReferenceIdeal := by
  intro m ρ m' ρ' hpre hagree
  refine ⟨fun c => Cert.KernelIdeal.ArrayValue.G m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9, g10⟩ := hagree c
  rw [g0, g1, g2, g3, g4, g5, g6, g7, g8, g9, g10]
  exact Cert.Proof.Bridge.result_eq m hpre c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
